-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S50000x3 .f32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg2
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S4000x128 : Shape := ⟨2, ![4000, 128]⟩
abbrev S4000x1 : Shape := ⟨2, ![4000, 1]⟩
abbrev S4000x3 : Shape := ⟨2, ![4000, 3]⟩
abbrev S50000 : Shape := ⟨1, ![50000]⟩
abbrev S50000x1 : Shape := ⟨2, ![50000, 1]⟩
abbrev S5000x128 : Shape := ⟨2, ![5000, 128]⟩

abbrev nBuf : Space → Nat
  | .hbm => 94
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x3, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S800000x3, .f32⟩
  | .hbm, ⟨56, _⟩ => ⟨S_, .f32⟩
  | .hbm, ⟨57, _⟩ => ⟨S800000, .f32⟩
  | .hbm, ⟨58, _⟩ => ⟨S800000x1, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S800000x128, .f32⟩
  | .hbm, ⟨66, _⟩ => ⟨S800000x3, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S50000x3, .f32⟩
  | .hbm, ⟨73, _⟩ => ⟨S800000x1, .i32⟩
  | .hbm, ⟨74, _⟩ => ⟨S50000x3, .f32⟩
  | .hbm, ⟨75, _⟩ => ⟨S_, .f32⟩
  | .hbm, ⟨76, _⟩ => ⟨S800000, .f32⟩
  | .hbm, ⟨77, _⟩ => ⟨S_, .f32⟩
  | .hbm, ⟨78, _⟩ => ⟨S50000, .f32⟩
  | .hbm, ⟨79, _⟩ => ⟨S800000x1, .i32⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x3, .f32⟩
  | .hbm, ⟨87, _⟩ => ⟨S50000x3, .f32⟩
  | .hbm, ⟨88, _⟩ => ⟨S50000x3, .f32⟩
  | .hbm, ⟨89, _⟩ => ⟨S128x128, .f32⟩
  | .hbm, ⟨90, _⟩ => ⟨S128x128, .f32⟩
  | .hbm, ⟨91, _⟩ => ⟨S1x128, .f32⟩
  | .hbm, ⟨92, _⟩ => ⟨S1x128, .f32⟩
  | .hbm, ⟨93, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x3, .f32⟩
  | .local _ .vmem, ⟨7, _⟩ => ⟨S4000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S4000x128, .f32⟩
  | .local _ .vmem, ⟨18, _⟩ => ⟨S4000x128, .f32⟩
  | .local _ .vmem, ⟨19, _⟩ => ⟨S4000x3, .f32⟩
  | .local _ .vmem, ⟨20, _⟩ => ⟨S4000x3, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_call0_v0 : Ref sig .tc := ⟨.hbm, 82, rfl⟩
abbrev main_call0_v1 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  broadcasts_S4000x1_S4000x3 : S4000x1.Broadcasts S4000x3
  bcast_S_S50000x128 : S_.BroadcastsInDim S50000x128 (![] : Fin 0 → Fin S50000x128.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S800000x3.size a
  hwx0_3 : ∀ i : grid0.Coords, EltTy.bits .f32 = 32 ∨ (Rect.block (s := S800000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S800000x128.size a
  hwx0_13 : ∀ i : grid0.Coords, EltTy.bits .f32 = 32 ∨ (Rect.block (s := S800000x128) S4000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x3.size a ≤ S800000x3.size a
  hwx0_14 : ∀ i : grid0.Coords, EltTy.bits .f32 = 32 ∨ (Rect.block (s := S800000x3) S4000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42_0) S4000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v42_1) S4000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S50000x3, .f32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x257, .f32⟩
  | 60 => ⟨S800000x128, .f32⟩
  | 61 => ⟨S1x128, .f32⟩
  | 62 => ⟨S800000x128, .f32⟩
  | 63 => ⟨S800000x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x128, .f32⟩
  | 73 => ⟨S800000x128, .f32⟩
  | 74 => ⟨S1x128, .f32⟩
  | 75 => ⟨S800000x128, .f32⟩
  | 76 => ⟨S800000x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S800000x128, .f32⟩
  | 86 => ⟨S800000x128, .f32⟩
  | 87 => ⟨S1x128, .f32⟩
  | 88 => ⟨S800000x128, .f32⟩
  | 89 => ⟨S800000x128, .f32⟩
  | 90 => ⟨S800000x128, .f32⟩
  | 91 => ⟨S800000x128, .f32⟩
  | 92 => ⟨S_, .f32⟩
  | 93 => ⟨S800000x128, .f32⟩
  | 94 => ⟨S800000x128, .f32⟩
  | 95 => ⟨S_, .f32⟩
  | 96 => ⟨S800000x128, .f32⟩
  | 97 => ⟨S800000x128, .f32⟩
  | 98 => ⟨S800000x128, .f32⟩
  | 99 => ⟨S800000x1, .f32⟩
  | 100 => ⟨S800000x3, .f32⟩
  | 101 => ⟨S800000x3, .f32⟩
  | 102 => ⟨S_, .f32⟩
  | 103 => ⟨S50000x3, .f32⟩
  | 104 => ⟨S800000x1, .i32⟩
  | 105 => ⟨S50000x3, .f32⟩
  | 106 => ⟨S_, .f32⟩
  | 107 => ⟨S800000, .f32⟩
  | 108 => ⟨S_, .f32⟩
  | 109 => ⟨S50000, .f32⟩
  | 110 => ⟨S800000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S50000x1, .f32⟩
  | 117 => ⟨S50000x3, .f32⟩
  | 118 => ⟨S50000x3, .f32⟩
  | 119 => ⟨S50000x3, .f32⟩
  | 120 => ⟨S_, .f32⟩
  | 121 => ⟨S50000x128, .f32⟩
  | 122 => ⟨S800000x1, .i32⟩
  | 123 => ⟨S50000x128, .f32⟩
  | 124 => ⟨S50000x256, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_7 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_8 : Ref sig .tc := ⟨.hbm, 106, rfl⟩
abbrev main_v58 : Ref sig .tc := ⟨.hbm, 107, rfl⟩
abbrev main_cst_9 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_10 : Ref sig .tc := ⟨.hbm, 112, rfl⟩
abbrev main_call3_v0 : Ref sig .tc := ⟨.hbm, 113, rfl⟩
abbrev main_call3_v1 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_11 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics of one equivariant graph-convolution layer, over the extended reals, as the functions both
  programs are shown to compute.

  Every edge `e` joins a row node and a column node. With `a`, `b` the two nodes' feature rows (128 entries each)
  and `r` the squared distance of their coordinates, the edge's message is two dense layers, each followed by
  `silu z = z · σ(z)`:
    `hid j = silu (Σₖ a k · wa k j + Σₖ b k · wb k j + r · wr j + b₁ j)`,   `msg j = silu (Σₖ hid k · w₂ k j + b₂ j)`.
  The first layer's weight matrix has 257 rows; here it is already taken apart into the 128 rows that meet `a`, the
  128 that meet `b` and the one that meets `r`. The edge's scalar gate is a third dense layer with `silu`, then a
  contraction with one column: `gate = Σₖ silu (Σₗ msg l · wc₁ l k + bc₁ k) · wc₂ k`; the edge moves its row node by
  `(coordinate difference) · gate`. A node's new features are its old ones plus a two-layer perceptron of the old
  features and the summed messages of its edges, the first layer's 256 rows taken apart as 128 + 128.
-/
import Idealize.ShloMosaic.PureOps.Ideal
import Idealize.ShloMosaic.Lib.ValueIdx

noncomputable section

namespace Cert.Gcl

open Idealize.ShloMosaic Idealize.ShloMosaic.ValueIdx

/-- A rank-2 array of extended reals. -/
abbrev Arr2 (n0 n1 : Nat) : Type := (⟨2, ![n0, n1]⟩ : Shape).Idx → EReal

/-- The row number of a rank-2 index. -/
abbrev row {n0 n1 : Nat} (i : (⟨2, ![n0, n1]⟩ : Shape).Idx) : Fin n0 := ⟨(i 0).val, (i 0).isLt⟩
/-- The column number of a rank-2 index. -/
abbrev col {n0 n1 : Nat} (i : (⟨2, ![n0, n1]⟩ : Shape).Idx) : Fin n1 := ⟨(i 1).val, (i 1).isLt⟩

/-- `z · σ(z)`, with `σ z = 1 / (1 + e^(-z))`. -/
def silu (z : EReal) : EReal := z * Ideal.logistic z

/-- The first edge layer: entry `j` of the hidden row, from the two node rows, the squared distance and the
    three parts of the weight matrix; the four summands are added in this order. -/
def hid (a b : Fin 128 → EReal) (r : EReal) (wa wb : Fin 128 → Fin 128 → EReal) (wr b1 : Fin 128 → EReal)
    (j : Fin 128) : EReal :=
  silu ((((∑ k, a k * wa k j) + (∑ k, b k * wb k j)) + r * wr j) + b1 j)

/-- A dense layer of width 128 followed by `silu`: entry `j`. -/
def layer (h : Fin 128 → EReal) (w : Fin 128 → Fin 128 → EReal) (b : Fin 128 → EReal) (j : Fin 128) : EReal :=
  silu ((∑ k, h k * w k j) + b j)

/-- The edge's message, entry `j`. -/
def msg (a b : Fin 128 → EReal) (r : EReal) (wa wb : Fin 128 → Fin 128 → EReal) (wr b1 : Fin 128 → EReal)
    (w2 : Fin 128 → Fin 128 → EReal) (b2 : Fin 128 → EReal) (j : Fin 128) : EReal :=
  layer (hid a b r wa wb wr b1) w2 b2 j

/-- The edge's scalar gate, from its message row. -/
def gate (f : Fin 128 → EReal) (wc1 : Fin 128 → Fin 128 → EReal) (bc1 wc2 : Fin 128 → EReal) : EReal :=
  ∑ k, layer f wc1 bc1 k * wc2 k

/-- A node's new feature `j`, from its old row, its summed messages and the node perceptron's weights (the
    first layer's matrix in its two halves). -/
def node (x g : Fin 128 → EReal) (wx wg : Fin 128 → Fin 128 → EReal) (bn1 : Fin 128 → EReal)
    (wn2 : Fin 128 → Fin 128 → EReal) (bn2 : Fin 128 → EReal) (j : Fin 128) : EReal :=
  x j + ((∑ k, silu ((((∑ l, x l * wx l k) + (∑ l, g l * wg l k))) + bn1 k) * wn2 k j) + bn2 j)

/-- All edges' messages: row `e` from row `e` of the gathered row-node features `xr`, of the gathered
    column-node features `xc` and of the squared distances `rad`. -/
def msgArr (xr xc : Arr2 800000 128) (rad : Arr2 800000 1) (wa wb : Fin 128 → Fin 128 → EReal)
    (wr b1 : Fin 128 → EReal) (w2 : Fin 128 → Fin 128 → EReal) (b2 : Fin 128 → EReal) : Arr2 800000 128 :=
  fun i => msg (fun k => xr (ix2 (row i) k)) (fun k => xc (ix2 (row i) k)) (rad (ix2 (row i) 0)) wa wb wr b1 w2 b2 (col i)

/-- All edges' coordinate moves: the coordinate difference times the gate of the edge's message row. -/
def shiftArr (cd : Arr2 800000 3) (f : Arr2 800000 128) (wc1 : Fin 128 → Fin 128 → EReal) (bc1 wc2 : Fin 128 → EReal) :
    Arr2 800000 3 :=
  fun i => cd i * gate (fun k => f (ix2 (row i) k)) wc1 bc1 wc2

/-- All nodes' new features. -/
def nodeArr (x g : Arr2 50000 128) (wx wg : Fin 128 → Fin 128 → EReal) (bn1 : Fin 128 → EReal)
    (wn2 : Fin 128 → Fin 128 → EReal) (bn2 : Fin 128 → EReal) : Arr2 50000 128 :=
  fun i => node (fun k => x (ix2 (row i) k)) (fun k => g (ix2 (row i) k)) wx wg bn1 wn2 bn2 (col i)

/-- A sum over 256 terms is the sum of its first 128 and its last 128. -/
theorem sum_256 (f : Fin 256 → EReal) :
    ∑ k, f k = (∑ k : Fin 128, f ⟨k.val, by omega⟩) + (∑ k : Fin 128, f ⟨128 + k.val, by omega⟩) :=
  Fin.sum_univ_add (a := 128) (b := 128) f

/-- A sum over 257 terms is the sum of its first 128, its next 128 and its last one, added in that order. -/
theorem sum_257 (f : Fin 257 → EReal) :
    ∑ k, f k = ((∑ k : Fin 128, f ⟨k.val, by omega⟩) + (∑ k : Fin 128, f ⟨128 + k.val, by omega⟩)) + f ⟨256, by omega⟩ := by
  have h : ∑ k, f k = (∑ i : Fin 256, f ⟨i.val, by omega⟩) + f ⟨256, by omega⟩ :=
    Fin.sum_univ_castSucc (n := 256) f
  rw [h, sum_256 (fun i : Fin 256 => f ⟨i.val, by omega⟩)]

end Cert.Gcl

end
-- ==== Proof.HostIn.lean ====
/-
  What the two regions find on entry, read back to the launch memory. Edge region: the three parts of the first
  weight matrix are its rows 0 to 127, 128 to 255 and 256; each one-row bias array is its bias vector; the
  remaining weight arrays are the arguments themselves. Node region: the two halves of the node perceptron's
  first weight matrix are its rows 0 to 127 and 128 to 255, the bias arrays are the bias vectors, the node
  features and the second weight matrix are the arguments. Neither a host operation nor the edge region writes
  an argument.
-/
import proofs.«175241_j88227218194812_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.HostIn

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A vector as a one-row array, read in that row. -/
theorem row_read {n : Nat} (v : (⟨1, ![n]⟩ : Shape).Idx → EReal) (h : (⟨1, ![n]⟩ : Shape).ShapeCasts ⟨2, ![1, n]⟩) (j : Fin n) :
    shapeCast (⟨2, ![1, n]⟩ : Shape) v h (ix2 0 j) = v (ix1 j) :=
  (shapeCast_addUnit_apply ![n] v h (ix2 0 j)).trans (congrArg v (funext fun a => by match a with | ⟨0, _⟩ => rfl))

/-- Rows 0 to 127 of the first weight matrix. -/
theorem w1a_at (c : Dev nD) (k j : Fin 128) :
    V1 (F := Ideal) m ρ c main_v36 (ix2 k j) = m ((c : Thread nD τ).loc main_arg3) (ix2 (⟨k.val, by omega⟩ : Fin 257) j) := by
  have e : (V1 (F := Ideal) m ρ c main_v36 : S128x128.Idx → Elt Ideal .f32) =
      extractStridedSlice S128x128 ![0, 0] (m ((c : Thread nD τ).loc main_arg3)) slices_S257x128_S128x128_0_0 := by
    show StableHlo.after hostOps0 (W0 m ρ c) (Proc.devRef .tc main_v36) = _
    after_results
  rw [e]
  exact extractStridedSlice_apply _ _ _ _ _ (fun a => by match a with | ⟨0, _⟩ => simp | ⟨1, _⟩ => simp)

/-- Rows 128 to 255 of the first weight matrix. -/
theorem w1b_at (c : Dev nD) (k j : Fin 128) :
    V1 (F := Ideal) m ρ c main_v37 (ix2 k j) = m ((c : Thread nD τ).loc main_arg3) (ix2 (⟨128 + k.val, by omega⟩ : Fin 257) j) := by
  have e : (V1 (F := Ideal) m ρ c main_v37 : S128x128.Idx → Elt Ideal .f32) =
      extractStridedSlice S128x128 ![128, 0] (m ((c : Thread nD τ).loc main_arg3)) slices_S257x128_S128x128_128_0 := by
    show StableHlo.after hostOps0 (W0 m ρ c) (Proc.devRef .tc main_v37) = _
    after_results
  rw [e]
  exact extractStridedSlice_apply _ _ _ _ _ (fun a => by match a with | ⟨0, _⟩ => simp | ⟨1, _⟩ => simp)

/-- Row 256 of the first weight matrix. -/
theorem w1r_at (c : Dev nD) (j : Fin 128) :
    V1 (F := Ideal) m ρ c main_v38 (ix2 0 j) = m ((c : Thread nD τ).loc main_arg3) (ix2 (⟨256, by omega⟩ : Fin 257) j) := by
  have e : (V1 (F := Ideal) m ρ c main_v38 : S1x128.Idx → Elt Ideal .f32) =
      extractStridedSlice S1x128 ![256, 0] (m ((c : Thread nD τ).loc main_arg3)) slices_S257x128_S1x128_256_0 := by
    show StableHlo.after hostOps0 (W0 m ρ c) (Proc.devRef .tc main_v38) = _
    after_results
  rw [e]
  exact extractStridedSlice_apply _ _ _ _ _ (fun a => by match a with | ⟨0, _⟩ => simp | ⟨1, _⟩ => simp)

/-- The first bias vector as a one-row array. -/
theorem b1_at (c : Dev nD) (j : Fin 128) :
    V1 (F := Ideal) m ρ c main_v39 (ix2 0 j) = m ((c : Thread nD τ).loc main_arg4) (ix1 j) := by
  have e : (V1 (F := Ideal) m ρ c main_v39 : S1x128.Idx → Elt Ideal .f32) =
      shapeCast S1x128 (m ((c : Thread nD τ).loc main_arg4)) shapeCasts_S128_S1x128 := by
    show StableHlo.after hostOps0 (W0 m ρ c) (Proc.devRef .tc main_v39) = _
    after_results
    rfl
  rw [e]
  exact row_read _ _ j

/-- The second bias vector as a one-row array. -/
theorem b2_at (c : Dev nD) (j : Fin 128) :
    V1 (F := Ideal) m ρ c main_v40 (ix2 0 j) = m ((c : Thread nD τ).loc main_arg6) (ix1 j) := by
  have e : (V1 (F := Ideal) m ρ c main_v40 : S1x128.Idx → Elt Ideal .f32) =
      shapeCast S1x128 (m ((c : Thread nD τ).loc main_arg6)) shapeCasts_S128_S1x128 := by
    show StableHlo.after hostOps0 (W0 m ρ c) (Proc.devRef .tc main_v40) = _
    after_results
    rfl
  rw [e]
  exact row_read _ _ j

/-- The gate layer's bias vector as a one-row array. -/
theorem bc1_at (c : Dev nD) (j : Fin 128) :
    V1 (F := Ideal) m ρ c main_v41 (ix2 0 j) = m ((c : Thread nD τ).loc main_arg12) (ix1 j) := by
  have e : (V1 (F := Ideal) m ρ c main_v41 : S1x128.Idx → Elt Ideal .f32) =
      shapeCast S1x128 (m ((c : Thread nD τ).loc main_arg12)) shapeCasts_S128_S1x128 := by
    show StableHlo.after hostOps0 (W0 m ρ c) (Proc.devRef .tc main_v41) = _
    after_results
    rfl
  rw [e]
  exact row_read _ _ j

/-- The second weight matrix is the argument. -/
theorem w2_eq (c : Dev nD) : V1 (F := Ideal) m ρ c main_arg5 = m ((c : Thread nD τ).loc main_arg5) := by
  show StableHlo.after hostOps0 (W0 m ρ c) (Proc.devRef .tc main_arg5) = _
  after_results

/-- The gate layer's weight matrix is the argument. -/
theorem wc1_eq (c : Dev nD) : V1 (F := Ideal) m ρ c main_arg11 = m ((c : Thread nD τ).loc main_arg11) := by
  show StableHlo.after hostOps0 (W0 m ρ c) (Proc.devRef .tc main_arg11) = _
  after_results

/-- The gate's contraction column is the argument. -/
theorem wc2_eq (c : Dev nD) : V1 (F := Ideal) m ρ c main_arg13 = m ((c : Thread nD τ).loc main_arg13) := by
  show StableHlo.after hostOps0 (W0 m ρ c) (Proc.devRef .tc main_arg13) = _
  after_results

/-! ## The node region's entry -/

/-- An argument the edge region does not stage is, at that region's exit, what the launch memory holds. -/
theorem exit0_arg7 (c : Dev nD) : W2 (F := Ideal) m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
theorem exit0_arg8 (c : Dev nD) : W2 (F := Ideal) m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
theorem exit0_arg10 (c : Dev nD) : W2 (F := Ideal) m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
theorem exit0_arg0 (c : Dev nD) : W2 (F := Ideal) m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
theorem exit0_arg9 (c : Dev nD) : W2 (F := Ideal) m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
theorem exit0_arg2 (c : Dev nD) : W2 (F := Ideal) m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- The node features the node region finds are the argument. -/
theorem x_eq (c : Dev nD) : V5 (F := Ideal) m ρ c main_arg0 = m ((c : Thread nD τ).loc main_arg0) := by
  show StableHlo.after hostOps1_2 (StableHlo.after hostOps1_1 (StableHlo.after hostOps1 (W2 m ρ c))) (Proc.devRef .tc main_arg0) = _
  after_results
  exact exit0_arg0 m ρ c

/-- The node perceptron's second weight matrix is the argument. -/
theorem wn2_eq (c : Dev nD) : V5 (F := Ideal) m ρ c main_arg9 = m ((c : Thread nD τ).loc main_arg9) := by
  show StableHlo.after hostOps1_2 (StableHlo.after hostOps1_1 (StableHlo.after hostOps1 (W2 m ρ c))) (Proc.devRef .tc main_arg9) = _
  after_results
  exact exit0_arg9 m ρ c

/-- Rows 0 to 127 of the node perceptron's first weight matrix. -/
theorem wx_at (c : Dev nD) (k j : Fin 128) :
    V5 (F := Ideal) m ρ c main_v58 (ix2 k j) = m ((c : Thread nD τ).loc main_arg7) (ix2 (⟨k.val, by omega⟩ : Fin 256) j) := by
  have e : (V5 (F := Ideal) m ρ c main_v58 : S128x128.Idx → Elt Ideal .f32) =
      extractStridedSlice S128x128 ![0, 0] (m ((c : Thread nD τ).loc main_arg7)) slices_S256x128_S128x128_0_0 := by
    show StableHlo.after hostOps1_2 (StableHlo.after hostOps1_1 (StableHlo.after hostOps1 (W2 m ρ c))) (Proc.devRef .tc main_v58) = _
    after_results
    rw [exit0_arg7]
  rw [e]
  exact extractStridedSlice_apply _ _ _ _ _ (fun a => by match a with | ⟨0, _⟩ => simp | ⟨1, _⟩ => simp)

/-- Rows 128 to 255 of the node perceptron's first weight matrix. -/
theorem wg_at (c : Dev nD) (k j : Fin 128) :
    V5 (F := Ideal) m ρ c main_v59 (ix2 k j) = m ((c : Thread nD τ).loc main_arg7) (ix2 (⟨128 + k.val, by omega⟩ : Fin 256) j) := by
  have e : (V5 (F := Ideal) m ρ c main_v59 : S128x128.Idx → Elt Ideal .f32) =
      extractStridedSlice S128x128 ![128, 0] (m ((c : Thread nD τ).loc main_arg7)) slices_S256x128_S128x128_128_0 := by
    show StableHlo.after hostOps1_2 (StableHlo.after hostOps1_1 (StableHlo.after hostOps1 (W2 m ρ c))) (Proc.devRef .tc main_v59) = _
    after_results
    rw [exit0_arg7]
  rw [e]
  exact extractStridedSlice_apply _ _ _ _ _ (fun a => by match a with | ⟨0, _⟩ => simp | ⟨1, _⟩ => simp)

/-- The node perceptron's first bias vector as a one-row array. -/
theorem bn1_at (c : Dev nD) (j : Fin 128) :
    V5 (F := Ideal) m ρ c main_v60 (ix2 0 j) = m ((c : Thread nD τ).loc main_arg8) (ix1 j) := by
  have e : (V5 (F := Ideal) m ρ c main_v60 : S1x128.Idx → Elt Ideal .f32) =
      shapeCast S1x128 (m ((c : Thread nD τ).loc main_arg8)) shapeCasts_S128_S1x128 := by
    show StableHlo.after hostOps1_2 (StableHlo.after hostOps1_1 (StableHlo.after hostOps1 (W2 m ρ c))) (Proc.devRef .tc main_v60) = _
    after_results
    rw [exit0_arg8]
    rfl
  rw [e]
  exact row_read _ _ j

/-- The node perceptron's second bias vector as a one-row array. -/
theorem bn2_at (c : Dev nD) (j : Fin 128) :
    V5 (F := Ideal) m ρ c main_v61 (ix2 0 j) = m ((c : Thread nD τ).loc main_arg10) (ix1 j) := by
  have e : (V5 (F := Ideal) m ρ c main_v61 : S1x128.Idx → Elt Ideal .f32) =
      shapeCast S1x128 (m ((c : Thread nD τ).loc main_arg10)) shapeCasts_S128_S1x128 := by
    show StableHlo.after hostOps1_2 (StableHlo.after hostOps1_1 (StableHlo.after hostOps1 (W2 m ρ c))) (Proc.devRef .tc main_v61) = _
    after_results
    rw [exit0_arg10]
    rfl
  rw [e]
  exact row_read _ _ j

end Cert.KernelIdeal.HostIn

end
-- ==== Proof.HostRef.lean ====
/-
  The arrays both programs compute by the same host operations from the same arguments, before the edge
  region: the two gathered feature arrays, the coordinate differences, the squared distances and the row-node
  index vector. The kernel program's buffers hold exactly the reference's stages of the launch arguments.
-/
import proofs.«175241_j88227218194812_1_alg».proof.Proof.Gen.KernelIdeal.Frame
import proofs.«175241_j88227218194812_1_alg».proof.Proof.Gen.ReferenceIdeal.Read

set_option maxRecDepth 16384

noncomputable section

namespace Cert.KernelIdeal.HostRef

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 2000000 in
/-- The row nodes' gathered features. -/
theorem xr_eq (c : Dev nD) : V1 (F := F) m ρ c main_v10 =
    Cert.ReferenceIdeal.Read.val_main_v28 (F := F) (m ((c : Thread nD τ).loc main_arg0)) (m ((c : Thread nD τ).loc main_arg1)) := by
  show StableHlo.after hostOps0 (W0 m ρ c) (Proc.devRef .tc main_v10) = _
  after_results_simp
  rfl

set_option maxHeartbeats 2000000 in
/-- The column nodes' gathered features. -/
theorem xc_eq (c : Dev nD) : V1 (F := F) m ρ c main_v17 =
    Cert.ReferenceIdeal.Read.val_main_v35 (F := F) (m ((c : Thread nD τ).loc main_arg0)) (m ((c : Thread nD τ).loc main_arg1)) := by
  show StableHlo.after hostOps0 (W0 m ρ c) (Proc.devRef .tc main_v17) = _
  after_results_simp
  rfl

set_option maxHeartbeats 2000000 in
/-- The coordinate differences. -/
theorem diff_eq (c : Dev nD) : V1 (F := F) m ρ c main_v32 =
    Cert.ReferenceIdeal.Read.val_main_v18 (F := F) (m ((c : Thread nD τ).loc main_arg1)) (m ((c : Thread nD τ).loc main_arg2)) := by
  show StableHlo.after hostOps0 (W0 m ρ c) (Proc.devRef .tc main_v32) = _
  after_results_simp
  rfl

set_option maxHeartbeats 2000000 in
/-- The squared distances, as a one-column array. -/
theorem rad_eq (c : Dev nD) : V1 (F := F) m ρ c main_v35 =
    Cert.ReferenceIdeal.Read.val_main_v21 (F := F) (m ((c : Thread nD τ).loc main_arg1)) (m ((c : Thread nD τ).loc main_arg2)) := by
  show StableHlo.after hostOps0 (W0 m ρ c) (Proc.devRef .tc main_v35) = _
  after_results_simp
  rfl

set_option maxHeartbeats 2000000 in
/-- The row-node index vector. -/
theorem rowidx_eq (c : Dev nD) : V1 (F := F) m ρ c main_v1 =
    Cert.ReferenceIdeal.Read.val_main_v1 (F := F) (m ((c : Thread nD τ).loc main_arg1)) := by
  show StableHlo.after hostOps0 (W0 m ρ c) (Proc.devRef .tc main_v1) = _
  after_results_simp
  rfl

end Cert.KernelIdeal.HostRef

end
-- ==== Proof.EdgeRows.lean ====
/-
  The edge body's stored values read at one entry.

  Row `p` of a block's hidden layer is `Gcl.hid` of row `p` of the two feature blocks and of the distance block;
  row `p` of the message block is a dense layer with `silu` of row `p` of the hidden block; row `p` of the move
  block is the coordinate difference times the gate of row `p` of the message block. A matrix product into a
  zero accumulator is a plain sum over the contracted column, a change of float format is the identity over the
  extended reals, and a broadcast repeats a row or a column.
-/
import proofs.«175241_j88227218194812_1_alg».proof.Proof.Gen.KernelIdeal.Skeleton
import proofs.«175241_j88227218194812_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeRows

open Cert.KernelIdeal Cert.KernelIdeal.Gen
open Idealize.ShloMosaic Idealize.ShloMosaic.TcCoe Idealize.ShloMosaic.ValueIdx

/-! ## A matrix product into a zero accumulator is a sum over the contracted column -/

/-- The left operand's row is the output's row. -/
theorem lhs_sq_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contracted coordinate. -/
theorem lhs_sq_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contracted coordinate. -/
theorem rhs_sq_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem rhs_sq_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000×128 by 128×128 product into the zero block, at row `p`, column `j`: the sum over `k` of the left
    operand's entry `(p, k)` times the right operand's entry `(k, j)`. -/
theorem matmul_sq_apply {φ₁ φ₂ : FTy} (x : FVec Ideal S4000x128 φ₁) (w : FVec Ideal S128x128 φ₂) (p : Fin 4000) (j : Fin 128) :
    matmul dot_S4000x128_S128x128_S4000x128_1_0_0_1_n_n none x w (constant (F := Ideal) S4000x128 .f32 0x00000000#32) (ix2 p j) =
      ∑ k : Fin 128, x (ix2 p k) * w (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun a => Fin.ext (by
    match a with
    | ⟨0, _⟩ => exact (rhs_sq_0 _ _).trans hk
    | ⟨1, _⟩ => exact rhs_sq_1 _ _)
  rw [el, er]

/-- The left operand's row is the output's row. -/
theorem lhs_col_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
/-- The left operand's column is the contracted coordinate. -/
theorem lhs_col_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
/-- The right operand's row is the contracted coordinate. -/
theorem rhs_col_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
/-- The right operand's column is the output's column. -/
theorem rhs_col_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A 4000×128 by 128×1 product into the zero column, at row `p`: the sum over `k` of the left operand's entry
    `(p, k)` times the right operand's entry `(k, 0)`. -/
theorem matmul_col_apply {φ₁ φ₂ : FTy} (x : FVec Ideal S4000x128 φ₁) (w : FVec Ideal S128x1 φ₂) (p : Fin 4000) (j : Fin 1) :
    matmul dot_S4000x128_S128x1_S4000x1_1_0_0_1_n_n none x w (constant (F := Ideal) S4000x1 .f32 0x00000000#32) (ix2 p j) =
      ∑ k : Fin 128, x (ix2 p k) * w (ix2 k j) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p j) ((ValueIdx.contrEquiv1 dot_S4000x128_S128x1_S4000x1_1_0_0_1_n_n 128 rfl rfl).symm k) = ix2 p k := funext fun a => Fin.ext (by
    match a with
    | ⟨0, _⟩ => exact lhs_col_0 _ _
    | ⟨1, _⟩ => exact (lhs_col_1 _ _).trans hk)
  have er : dot_S4000x128_S128x1_S4000x1_1_0_0_1_n_n.rhsIdx (ix2 p j) ((ValueIdx.contrEquiv1 dot_S4000x128_S128x1_S4000x1_1_0_0_1_n_n 128 rfl rfl).symm k) = ix2 k j := funext fun a => Fin.ext (by
    match a with
    | ⟨0, _⟩ => exact (rhs_col_0 _ _).trans hk
    | ⟨1, _⟩ => exact rhs_col_1 _ _)
  rw [el, er]

/-! ## Broadcasts -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The logistic function at an index -/

/-- The logistic function acts entry by entry. -/
theorem logistic_apply {s : Shape} {φ : FTy} (a : FVec Ideal s φ) (i : s.Idx) : logistic a i = Ideal.logistic (a i) := rfl

/-! ## The six stored values -/

/-- The coordinate-difference block passes through unchanged. -/
theorem diff_apply (v8 : Vec Ideal S4000x3 .f32) (i : S4000x3.Idx) : k0_pay3 (F := Ideal) v8 i = v8 i := by
  unfold k0_pay3
  rw [shapeCast_self]

/-- The second weight matrix passes through its change of format unchanged. -/
theorem w2_apply (v33 : Vec Ideal S128x128 .f32) (i : S128x128.Idx) : k0_pay5 (F := Ideal) v33 i = v33 i := rfl

/-- The second bias row passes through unchanged. -/
theorem b2_apply (v35 : Vec Ideal S1x128 .f32) (i : S1x128.Idx) : k0_pay6 (F := Ideal) v35 i = v35 i := by
  unfold k0_pay6
  rw [shapeCast_self]

/-- The hidden block at row `p`, column `j`. -/
theorem hid_apply (v0 v3 : Vec Ideal S4000x128 .f32) (v6 : Vec Ideal S4000x1 .f32) (v10 v13 : Vec Ideal S128x128 .f32)
    (v16 v18 : Vec Ideal S1x128 .f32) (p : Fin 4000) (j : Fin 128) :
    k0_pay4 (F := Ideal) v0 v3 v6 v10 v13 v16 v18 (ix2 p j) =
      Cert.Gcl.hid (fun k => v0 (ix2 p k)) (fun k => v3 (ix2 p k)) (v6 (ix2 p 0)) (fun k j => v10 (ix2 k j))
        (fun k j => v13 (ix2 k j)) (fun j => v16 (ix2 0 j)) (fun j => v18 (ix2 0 j)) j := by
  -- the two products are sums over the contracted column; the distance column and the two rows are repeated
  unfold k0_pay4
  simp only [shapeCast_self, mulf_apply, addf_apply, logistic_apply, matmul_sq_apply, truncf_apply,
    broadcastTo_a1_ab_apply, broadcastTo_1b_ab_apply]
  rfl

/-- The message block at row `p`, column `j`: a dense layer with `silu` of row `p` of the hidden block. -/
theorem layer_apply (v32 : FVec Ideal S4000x128 .f32) (v34 : FVec Ideal S128x128 .bf16) (v36 : FVec Ideal S1x128 .f32)
    (p : Fin 4000) (j : Fin 128) :
    k0_pay1 (F := Ideal) v32 v34 v36 (ix2 p j) =
      Cert.Gcl.layer (fun k => v32 (ix2 p k)) (fun k j => v34 (ix2 k j)) (fun j => v36 (ix2 0 j)) j := by
  -- the product is a sum over the contracted column; the bias row is repeated down the block
  unfold k0_pay1
  simp only [mulf_apply, addf_apply, logistic_apply, matmul_sq_apply, truncf_apply, broadcastTo_1b_ab_apply]
  rfl

/-- The move block at row `p`, coordinate `d`: the difference times the gate of row `p` of the message block. -/
theorem shift_apply (v9 : FVec Ideal S4000x3 .f32) (v32 : FVec Ideal S4000x128 .f32) (v34 : FVec Ideal S128x128 .bf16)
    (v36 : FVec Ideal S1x128 .f32) (v43 : Vec Ideal S128x128 .f32) (v45 : Vec Ideal S1x128 .f32) (v53 : Vec Ideal S128x1 .f32)
    (p : Fin 4000) (d : Fin 3) :
    k0_pay2 (F := Ideal) v9 v32 v34 v36 v43 v45 v53 (ix2 p d) =
      v9 (ix2 p d) * Cert.Gcl.gate (fun k => k0_pay1 (F := Ideal) v32 v34 v36 (ix2 p k)) (fun k j => v43 (ix2 k j))
        (fun j => v45 (ix2 0 j)) (fun k => v53 (ix2 k 0)) := by
  -- the gate column is the second product's sum, repeated across the three coordinates
  unfold k0_pay2
  simp only [shapeCast_self, mulf_apply, addf_apply, logistic_apply, matmul_sq_apply, matmul_col_apply, truncf_apply,
    broadcastTo_a1_ab_apply, broadcastTo_1b_ab_apply]
  rfl

end Cert.KernelIdeal.EdgeRows

end
-- ==== Proof.EdgeValue.lean ====
/-
  What the edge region leaves in its two result arrays, as whole-array functions of the arrays it finds on entry.

  The region walks the 800000 edges in 200 blocks of 4000 rows. At a block the body forms, row by row, the hidden
  layer from the two gathered feature rows and the squared distance, the message from the hidden layer, and the
  gate from the message; it stores the message block and the coordinate differences scaled by the gate. A row's
  results depend on that row of the inputs only, the weights are the same whole arrays at every block, and the
  blocks tile the rows: so the arrays end as `Gcl.msgArr` and `Gcl.shiftArr` of the entry arrays.
-/
import proofs.«175241_j88227218194812_1_alg».proof.Proof.Gen.KernelIdeal.Frame
import proofs.«175241_j88227218194812_1_alg».proof.Proof.Spec
import proofs.«175241_j88227218194812_1_alg».proof.Proof.EdgeRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The messages of all edges, from the arrays the region finds: the two gathered feature arrays, the squared
    distances, the three parts of the first weight matrix, and the biases as one-row arrays. -/
abbrev msgOf (c : Dev nD) : Cert.Gcl.Arr2 800000 128 :=
  Cert.Gcl.msgArr (V c main_v10) (V c main_v17) (V c main_v35)
    (fun k j => V c main_v36 (ix2 k j)) (fun k j => V c main_v37 (ix2 k j)) (fun j => V c main_v38 (ix2 0 j))
    (fun j => V c main_v39 (ix2 0 j)) (fun k j => V c main_arg5 (ix2 k j)) (fun j => V c main_v40 (ix2 0 j))

/-! ## The grid's index maps -/

/-- The two zero offsets of a whole block's rectangle. -/
theorem hz : (![0, 0] : Fin 2 → Nat) = fun _ => 0 := funext fun a => by fin_cases a <;> rfl

/-- The grid has 200 points. -/
theorem points : cfg0.N = 200 := by decide

/-- The row windows and the two result windows sit at block `(t, 0)` at point `t`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The weight windows sit at block `(0, 0)` at every point. -/
theorem idx_weights : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## Each input block read where it sits in its array -/

/-- Row `p` of block `t` of the gathered row-node features is edge `4000 t + p`'s row. -/
theorem xr_blk (c : Dev nD) (t : Fin cfg0.N) (p : Fin 4000) (e : Fin 800000) (he : e.val = t.val * 4000 + p.val)
    (k : Fin 128) : iblk0 V c 0 t (ix2 p k) = V c main_v10 (ix2 e k) := by
  obtain ⟨⟨h0, h1⟩, -⟩ := idx_rows t
  unfold iblk0
  rw [View.read_apply]
  show V c main_v10 _ = V c main_v10 _
  congr 1
  funext a; apply Fin.ext
  match a with
  | ⟨0, _⟩ => show win0_0.index t (0 : Fin 2) * 4000 + 1 * p.val = e.val; omega
  | ⟨1, _⟩ => show win0_0.index t (1 : Fin 2) * 128 + 1 * k.val = k.val; omega

/-- The same for the gathered column-node features. -/
theorem xc_blk (c : Dev nD) (t : Fin cfg0.N) (p : Fin 4000) (e : Fin 800000) (he : e.val = t.val * 4000 + p.val)
    (k : Fin 128) : iblk0 V c 1 t (ix2 p k) = V c main_v17 (ix2 e k) := by
  obtain ⟨-, ⟨h0, h1⟩, -⟩ := idx_rows t
  unfold iblk0
  rw [View.read_apply]
  show V c main_v17 _ = V c main_v17 _
  congr 1
  funext a; apply Fin.ext
  match a with
  | ⟨0, _⟩ => show win0_1.index t (0 : Fin 2) * 4000 + 1 * p.val = e.val; omega
  | ⟨1, _⟩ => show win0_1.index t (1 : Fin 2) * 128 + 1 * k.val = k.val; omega

/-- The same for the squared distances. -/
theorem rad_blk (c : Dev nD) (t : Fin cfg0.N) (p : Fin 4000) (e : Fin 800000) (he : e.val = t.val * 4000 + p.val)
    (k : Fin 1) : iblk0 V c 2 t (ix2 p k) = V c main_v35 (ix2 e k) := by
  obtain ⟨-, -, ⟨h0, h1⟩, -⟩ := idx_rows t
  unfold iblk0
  rw [View.read_apply]
  show V c main_v35 _ = V c main_v35 _
  congr 1
  funext a; apply Fin.ext
  match a with
  | ⟨0, _⟩ => show win0_2.index t (0 : Fin 2) * 4000 + 1 * p.val = e.val; omega
  | ⟨1, _⟩ => show win0_2.index t (1 : Fin 2) * 1 + 1 * k.val = k.val; omega

/-- The same for the coordinate differences. -/
theorem cd_blk (c : Dev nD) (t : Fin cfg0.N) (p : Fin 4000) (e : Fin 800000) (he : e.val = t.val * 4000 + p.val)
    (k : Fin 3) : iblk0 V c 3 t (ix2 p k) = V c main_v32 (ix2 e k) := by
  obtain ⟨-, -, -, ⟨h0, h1⟩, -⟩ := idx_rows t
  unfold iblk0
  rw [View.read_apply]
  show V c main_v32 _ = V c main_v32 _
  congr 1
  funext a; apply Fin.ext
  match a with
  | ⟨0, _⟩ => show win0_3.index t (0 : Fin 2) * 4000 + 1 * p.val = e.val; omega
  | ⟨1, _⟩ => show win0_3.index t (1 : Fin 2) * 3 + 1 * k.val = k.val; omega

/-- A weight window's one block is its whole array: the first part of the first weight matrix. -/
theorem wa_blk (c : Dev nD) (t : Fin cfg0.N) (k j : Fin 128) : iblk0 V c 4 t (ix2 k j) = V c main_v36 (ix2 k j) := by
  obtain ⟨⟨h0, h1⟩, -⟩ := idx_weights t
  unfold iblk0
  rw [View.read_apply]
  show V c main_v36 _ = V c main_v36 _
  congr 1
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- The second part of the first weight matrix. -/
theorem wb_blk (c : Dev nD) (t : Fin cfg0.N) (k j : Fin 128) : iblk0 V c 5 t (ix2 k j) = V c main_v37 (ix2 k j) := by
  obtain ⟨-, ⟨h0, h1⟩, -⟩ := idx_weights t
  unfold iblk0
  rw [View.read_apply]
  show V c main_v37 _ = V c main_v37 _
  congr 1
  funext a; apply Fin.ext
  match a with
  | ⟨0, _⟩ => show win0_5.index t (0 : Fin 2) * 128 + 1 * k.val = k.val; omega
  | ⟨1, _⟩ => show win0_5.index t (1 : Fin 2) * 128 + 1 * j.val = j.val; omega

/-- The distance row of the first weight matrix. -/
theorem wr_blk (c : Dev nD) (t : Fin cfg0.N) (k : Fin 1) (j : Fin 128) : iblk0 V c 6 t (ix2 k j) = V c main_v38 (ix2 k j) := by
  obtain ⟨-, -, ⟨h0, h1⟩, -⟩ := idx_weights t
  unfold iblk0
  rw [View.read_apply]
  show V c main_v38 _ = V c main_v38 _
  congr 1
  funext a; apply Fin.ext
  match a with
  | ⟨0, _⟩ => show win0_6.index t (0 : Fin 2) * 1 + 1 * k.val = k.val; omega
  | ⟨1, _⟩ => show win0_6.index t (1 : Fin 2) * 128 + 1 * j.val = j.val; omega

/-- The first bias row. -/
theorem b1_blk (c : Dev nD) (t : Fin cfg0.N) (k : Fin 1) (j : Fin 128) : iblk0 V c 7 t (ix2 k j) = V c main_v39 (ix2 k j) := by
  obtain ⟨-, -, -, ⟨h0, h1⟩, -⟩ := idx_weights t
  unfold iblk0
  rw [View.read_apply]
  show V c main_v39 _ = V c main_v39 _
  congr 1
  funext a; apply Fin.ext
  match a with
  | ⟨0, _⟩ => show win0_7.index t (0 : Fin 2) * 1 + 1 * k.val = k.val; omega
  | ⟨1, _⟩ => show win0_7.index t (1 : Fin 2) * 128 + 1 * j.val = j.val; omega

/-- The second weight matrix. -/
theorem w2_blk (c : Dev nD) (t : Fin cfg0.N) (k j : Fin 128) : iblk0 V c 8 t (ix2 k j) = V c main_arg5 (ix2 k j) := by
  obtain ⟨-, -, -, -, ⟨h0, h1⟩, -⟩ := idx_weights t
  unfold iblk0
  rw [View.read_apply]
  show V c main_arg5 _ = V c main_arg5 _
  congr 1
  funext a; apply Fin.ext
  match a with
  | ⟨0, _⟩ => show win0_8.index t (0 : Fin 2) * 128 + 1 * k.val = k.val; omega
  | ⟨1, _⟩ => show win0_8.index t (1 : Fin 2) * 128 + 1 * j.val = j.val; omega

/-- The second bias row. -/
theorem b2_blk (c : Dev nD) (t : Fin cfg0.N) (k : Fin 1) (j : Fin 128) : iblk0 V c 9 t (ix2 k j) = V c main_v40 (ix2 k j) := by
  obtain ⟨-, -, -, -, -, ⟨h0, h1⟩, -⟩ := idx_weights t
  unfold iblk0
  rw [View.read_apply]
  show V c main_v40 _ = V c main_v40 _
  congr 1
  funext a; apply Fin.ext
  match a with
  | ⟨0, _⟩ => show win0_9.index t (0 : Fin 2) * 1 + 1 * k.val = k.val; omega
  | ⟨1, _⟩ => show win0_9.index t (1 : Fin 2) * 128 + 1 * j.val = j.val; omega

/-- The gate's weight matrix. -/
theorem wc1_blk (c : Dev nD) (t : Fin cfg0.N) (k j : Fin 128) : iblk0 V c 10 t (ix2 k j) = V c main_arg11 (ix2 k j) := by
  obtain ⟨-, -, -, -, -, -, ⟨h0, h1⟩, -⟩ := idx_weights t
  unfold iblk0
  rw [View.read_apply]
  show V c main_arg11 _ = V c main_arg11 _
  congr 1
  funext a; apply Fin.ext
  match a with
  | ⟨0, _⟩ => show win0_10.index t (0 : Fin 2) * 128 + 1 * k.val = k.val; omega
  | ⟨1, _⟩ => show win0_10.index t (1 : Fin 2) * 128 + 1 * j.val = j.val; omega

/-- The gate's bias row. -/
theorem bc1_blk (c : Dev nD) (t : Fin cfg0.N) (k : Fin 1) (j : Fin 128) : iblk0 V c 11 t (ix2 k j) = V c main_v41 (ix2 k j) := by
  obtain ⟨-, -, -, -, -, -, -, ⟨h0, h1⟩, -⟩ := idx_weights t
  unfold iblk0
  rw [View.read_apply]
  show V c main_v41 _ = V c main_v41 _
  congr 1
  funext a; apply Fin.ext
  match a with
  | ⟨0, _⟩ => show win0_11.index t (0 : Fin 2) * 1 + 1 * k.val = k.val; omega
  | ⟨1, _⟩ => show win0_11.index t (1 : Fin 2) * 128 + 1 * j.val = j.val; omega

/-- The gate's output column. -/
theorem wc2_blk (c : Dev nD) (t : Fin cfg0.N) (k : Fin 128) (j : Fin 1) : iblk0 V c 12 t (ix2 k j) = V c main_arg13 (ix2 k j) := by
  obtain ⟨-, -, -, -, -, -, -, -, h0, h1⟩ := idx_weights t
  unfold iblk0
  rw [View.read_apply]
  show V c main_arg13 _ = V c main_arg13 _
  congr 1
  funext a; apply Fin.ext
  match a with
  | ⟨0, _⟩ => show win0_12.index t (0 : Fin 2) * 128 + 1 * k.val = k.val; omega
  | ⟨1, _⟩ => show win0_12.index t (1 : Fin 2) * 1 + 1 * j.val = j.val; omega

/-! ## The two stored blocks at one entry -/

/-- The message block at row `p`, column `q`, over any input blocks: the message of row `p` of the blocks. -/
theorem msg_rows (x0 x1 : Vec Ideal S4000x128 .f32) (x2 : Vec Ideal S4000x1 .f32) (x4 x5 : Vec Ideal S128x128 .f32)
    (x6 x7 : Vec Ideal S1x128 .f32) (x8 : Vec Ideal S128x128 .f32) (x9 : Vec Ideal S1x128 .f32) (p : Fin 4000) (q : Fin 128) :
    k0_pay1 (F := Ideal) (k0_pay4 x0 x1 x2 x4 x5 x6 x7) (k0_pay5 x8) (k0_pay6 x9) (ix2 p q) =
      Cert.Gcl.msg (fun k => x0 (ix2 p k)) (fun k => x1 (ix2 p k)) (x2 (ix2 p 0)) (fun k j => x4 (ix2 k j))
        (fun k j => x5 (ix2 k j)) (fun j => x6 (ix2 0 j)) (fun j => x7 (ix2 0 j)) (fun k j => x8 (ix2 k j))
        (fun j => x9 (ix2 0 j)) q := by
  rw [EdgeRows.layer_apply]
  simp only [EdgeRows.hid_apply, EdgeRows.w2_apply, EdgeRows.b2_apply]
  rfl

/-- The message block of point `t` at row `p`, column `q`, is the message array at edge `4000 t + p`. -/
theorem msg_at (c : Dev nD) (t : Fin cfg0.N) (p : Fin 4000) (e : Fin 800000) (he : e.val = t.val * 4000 + p.val) (q : Fin 128) :
    k0_pay1 (F := Ideal) (k0_pay4 (iblk0 V c 0 t) (iblk0 V c 1 t) (iblk0 V c 2 t) (iblk0 V c 4 t) (iblk0 V c 5 t)
        (iblk0 V c 6 t) (iblk0 V c 7 t)) (k0_pay5 (iblk0 V c 8 t)) (k0_pay6 (iblk0 V c 9 t)) (ix2 p q) =
      msgOf V c (ix2 e q) := by
  refine (msg_rows _ _ _ _ _ _ _ _ _ p q).trans ?_
  show _ = Cert.Gcl.msg (fun k => V c main_v10 (ix2 e k)) (fun k => V c main_v17 (ix2 e k)) (V c main_v35 (ix2 e 0))
    (fun k j => V c main_v36 (ix2 k j)) (fun k j => V c main_v37 (ix2 k j)) (fun j => V c main_v38 (ix2 0 j))
    (fun j => V c main_v39 (ix2 0 j)) (fun k j => V c main_arg5 (ix2 k j)) (fun j => V c main_v40 (ix2 0 j)) q
  simp only [xr_blk V c t p e he, xc_blk V c t p e he, rad_blk V c t p e he, wa_blk V c t, wb_blk V c t, wr_blk V c t,
    b1_blk V c t, w2_blk V c t, b2_blk V c t]

/-- The move array at edge `e`, coordinate `d`: the difference times the gate of row `e` of the messages. -/
theorem shift_spec (cd : Cert.Gcl.Arr2 800000 3) (f : Cert.Gcl.Arr2 800000 128) (wc1 : Fin 128 → Fin 128 → EReal)
    (bc1 wc2 : Fin 128 → EReal) (e : Fin 800000) (d : Fin 3) :
    Cert.Gcl.shiftArr cd f wc1 bc1 wc2 (ix2 e d) = cd (ix2 e d) * Cert.Gcl.gate (fun k => f (ix2 e k)) wc1 bc1 wc2 := rfl

/-- The move block at row `p`, coordinate `d`, over any input blocks. -/
theorem shift_rows (x0 x1 : Vec Ideal S4000x128 .f32) (x2 : Vec Ideal S4000x1 .f32) (x3 : Vec Ideal S4000x3 .f32)
    (x4 x5 : Vec Ideal S128x128 .f32) (x6 x7 : Vec Ideal S1x128 .f32) (x8 : Vec Ideal S128x128 .f32) (x9 : Vec Ideal S1x128 .f32)
    (x10 : Vec Ideal S128x128 .f32) (x11 : Vec Ideal S1x128 .f32) (x12 : Vec Ideal S128x1 .f32) (p : Fin 4000) (d : Fin 3) :
    k0_pay2 (F := Ideal) (k0_pay3 x3) (k0_pay4 x0 x1 x2 x4 x5 x6 x7) (k0_pay5 x8) (k0_pay6 x9) x10 x11 x12 (ix2 p d) =
      x3 (ix2 p d) * Cert.Gcl.gate (fun k => k0_pay1 (F := Ideal) (k0_pay4 x0 x1 x2 x4 x5 x6 x7) (k0_pay5 x8) (k0_pay6 x9) (ix2 p k))
        (fun k j => x10 (ix2 k j)) (fun j => x11 (ix2 0 j)) (fun k => x12 (ix2 k 0)) := by
  rw [EdgeRows.shift_apply, EdgeRows.diff_apply]

/-- The move block of point `t` at row `p`, coordinate `d`, is the move array at edge `4000 t + p`. -/
theorem shift_at (c : Dev nD) (t : Fin cfg0.N) (p : Fin 4000) (e : Fin 800000) (he : e.val = t.val * 4000 + p.val) (d : Fin 3) :
    k0_pay2 (F := Ideal) (k0_pay3 (iblk0 V c 3 t)) (k0_pay4 (iblk0 V c 0 t) (iblk0 V c 1 t) (iblk0 V c 2 t) (iblk0 V c 4 t)
        (iblk0 V c 5 t) (iblk0 V c 6 t) (iblk0 V c 7 t)) (k0_pay5 (iblk0 V c 8 t)) (k0_pay6 (iblk0 V c 9 t)) (iblk0 V c 10 t)
        (iblk0 V c 11 t) (iblk0 V c 12 t) (ix2 p d) =
      Cert.Gcl.shiftArr (V c main_v32) (msgOf V c) (fun k j => V c main_arg11 (ix2 k j)) (fun j => V c main_v41 (ix2 0 j))
        (fun k => V c main_arg13 (ix2 k 0)) (ix2 e d) := by
  refine (shift_rows _ _ _ _ _ _ _ _ _ _ _ _ _ p d).trans ?_
  rw [shift_spec]
  simp only [msg_at V c t p e he, cd_blk V c t p e he, wc1_blk V c t, bc1_blk V c t, wc2_blk V c t]

/-! ## What a point writes back -/

/-- Where row `p`, column `q` of the message window's block at point `t` sits in the array. -/
theorem msg_emb (t : Fin cfg0.N) (p : Fin 4000) (e : Fin 800000) (he : e.val = t.val * 4000 + p.val) (q : Fin 128) :
    ((cfg0.win 13).blk t).view.emb (ix2 p q) = (ix2 e q : S800000x128.Idx) := by
  obtain ⟨-, -, -, -, ⟨h0, h1⟩, -⟩ := idx_rows t
  funext a; apply Fin.ext
  match a with
  | ⟨0, _⟩ => show win0_13.index t (0 : Fin 2) * 4000 + 1 * p.val = e.val; omega
  | ⟨1, _⟩ => show win0_13.index t (1 : Fin 2) * 128 + 1 * q.val = q.val; omega

/-- The same for the move window. -/
theorem shift_emb (t : Fin cfg0.N) (p : Fin 4000) (e : Fin 800000) (he : e.val = t.val * 4000 + p.val) (d : Fin 3) :
    ((cfg0.win 14).blk t).view.emb (ix2 p d) = (ix2 e d : S800000x3.Idx) := by
  obtain ⟨-, -, -, -, -, h0, h1⟩ := idx_rows t
  funext a; apply Fin.ext
  match a with
  | ⟨0, _⟩ => show win0_14.index t (0 : Fin 2) * 4000 + 1 * p.val = e.val; omega
  | ⟨1, _⟩ => show win0_14.index t (1 : Fin 2) * 3 + 1 * d.val = d.val; omega

/-- Point `t` writes back block `t` of the message array. -/
theorem msg_flushed (c : Dev nD) (t : Fin cfg0.N) :
    (dat0 (F := Ideal) V c).flushed 13 t = ((cfg0.win 13).blk t).view.read (Elt Ideal) (msgOf V c) := by
  show (cfg0.win 13).cut (grid0.coords t) ((dat0 V c).after 13 t) = _
  rw [after0_13]
  unfold out0_13
  rw [View.canon_unit_zero hz]
  simp only [View.ld_unit_zero (S := S4000x128) hz, View.ld_unit_zero (S := S4000x1) hz,
    View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  have hp : t.val * 4000 + p.val < 800000 := by have := Nat.lt_of_lt_of_eq t.isLt points; omega
  rw [View.read_apply, msg_emb t p ⟨_, hp⟩ rfl q]
  exact msg_at V c t p ⟨_, hp⟩ rfl q

/-- Point `t` writes back block `t` of the move array. -/
theorem shift_flushed (c : Dev nD) (t : Fin cfg0.N) :
    (dat0 (F := Ideal) V c).flushed 14 t = ((cfg0.win 14).blk t).view.read (Elt Ideal)
      (Cert.Gcl.shiftArr (V c main_v32) (msgOf V c) (fun k j => V c main_arg11 (ix2 k j)) (fun j => V c main_v41 (ix2 0 j))
        (fun k => V c main_arg13 (ix2 k 0))) := by
  show (cfg0.win 14).cut (grid0.coords t) ((dat0 V c).after 14 t) = _
  rw [after0_14]
  unfold out0_14
  rw [View.canon_unit_zero hz]
  simp only [View.ld_unit_zero (S := S4000x128) hz, View.ld_unit_zero (S := S4000x1) hz, View.ld_unit_zero (S := S4000x3) hz,
    View.ld_unit_zero (S := S128x128) hz, View.ld_unit_zero (S := S1x128) hz, View.ld_unit_zero (S := S128x1) hz]
  funext j
  obtain ⟨p, d, rfl⟩ : ∃ (p : Fin 4000) (d : Fin 3), j = ix2 p d := ⟨j 0, j 1, eq_ix2 j⟩
  have hp : t.val * 4000 + p.val < 800000 := by have := Nat.lt_of_lt_of_eq t.isLt points; omega
  rw [View.read_apply, shift_emb t p ⟨_, hp⟩ rfl d]
  exact shift_at V c t p ⟨_, hp⟩ rfl d

/-! ## The blocks tile the rows -/

/-- An entry of the message array is in point `t`'s block iff each coordinate is in the block's range. -/
theorem msg_mem (t : Fin cfg0.N) (i : S800000x128.Idx) :
    i ∈ ((cfg0.win 13).blk t).view.set ↔ ∀ a : Fin 2, win0_13.index t a * S4000x128.size a ≤ (i a).val
      ∧ (i a).val < win0_13.index t a * S4000x128.size a + S4000x128.size a := by
  show i ∈ ((View.whole main_v42_0).slice (win0_13.rect t)).set ↔ _
  rw [View.set_slice_whole, Rect.mem_set_unit]
  exact Iff.rfl

/-- The same for the move array. -/
theorem shift_mem (t : Fin cfg0.N) (i : S800000x3.Idx) :
    i ∈ ((cfg0.win 14).blk t).view.set ↔ ∀ a : Fin 2, win0_14.index t a * S4000x3.size a ≤ (i a).val
      ∧ (i a).val < win0_14.index t a * S4000x3.size a + S4000x3.size a := by
  show i ∈ ((View.whole main_v42_1).slice (win0_14.rect t)).set ↔ _
  rw [View.set_slice_whole, Rect.mem_set_unit]
  exact Iff.rfl

/-- Row `r` of the message array is in the block of point `r / 4000`. -/
theorem msg_cover (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  obtain ⟨t, ht⟩ : ∃ t : Fin cfg0.N, t.val = (i 0).val / 4000 := ⟨⟨(i 0).val / 4000, by rw [points]; omega⟩, rfl⟩
  obtain ⟨-, -, -, -, ⟨h0, h1⟩, -⟩ := idx_rows t
  refine ⟨t, flush0_13 t, ?_⟩
  rw [msg_mem]
  intro a
  match a with
  | ⟨0, _⟩ =>
    show win0_13.index t (0 : Fin 2) * 4000 ≤ (i 0).val ∧ (i 0).val < win0_13.index t (0 : Fin 2) * 4000 + 4000
    omega
  | ⟨1, _⟩ =>
    show win0_13.index t (1 : Fin 2) * 128 ≤ (i 1).val ∧ (i 1).val < win0_13.index t (1 : Fin 2) * 128 + 128
    omega

/-- The same for the move array. -/
theorem shift_cover (i : S800000x3.Idx) :
    ∃ t : Fin cfg0.N, (cfg0.win 14).flush t = true ∧ i ∈ ((cfg0.win 14).blk t).view.set := by
  have hi0 : (i 0).val < 800000 := (i 0).isLt
  have hi1 : (i 1).val < 3 := (i 1).isLt
  obtain ⟨t, ht⟩ : ∃ t : Fin cfg0.N, t.val = (i 0).val / 4000 := ⟨⟨(i 0).val / 4000, by rw [points]; omega⟩, rfl⟩
  obtain ⟨-, -, -, -, -, h0, h1⟩ := idx_rows t
  refine ⟨t, flush0_14 t, ?_⟩
  rw [shift_mem]
  intro a
  match a with
  | ⟨0, _⟩ =>
    show win0_14.index t (0 : Fin 2) * 4000 ≤ (i 0).val ∧ (i 0).val < win0_14.index t (0 : Fin 2) * 4000 + 4000
    omega
  | ⟨1, _⟩ =>
    show win0_14.index t (1 : Fin 2) * 3 ≤ (i 1).val ∧ (i 1).val < win0_14.index t (1 : Fin 2) * 3 + 3
    omega

/-! ## The arrays after the region -/

/-- The message array after the region. -/
theorem msg_arr (c : Dev nD) : (dat0 (F := Ideal) V c).arrAt 13 cfg0.N = msgOf V c :=
  (dat0 (F := Ideal) V c).arrAt_eq_of_cover 13 (msgOf V c) (fun t _ => msg_flushed V c t) msg_cover

/-- The coordinate-move array after the region. -/
theorem shift_arr (c : Dev nD) : (dat0 (F := Ideal) V c).arrAt 14 cfg0.N =
    Cert.Gcl.shiftArr (V c main_v32) (msgOf V c) (fun k j => V c main_arg11 (ix2 k j)) (fun j => V c main_v41 (ix2 0 j))
      (fun k => V c main_arg13 (ix2 k 0)) :=
  (dat0 (F := Ideal) V c).arrAt_eq_of_cover 14 _ (fun t _ => shift_flushed V c t) shift_cover

end Cert.KernelIdeal.EdgeValue

end
-- ==== Proof.NodeRows.lean ====
/-
  The node body's stored value read at one entry: row `p`, column `j` of the block is `Gcl.node` of row `p` of
  the feature block and of the summed-message block.
-/
import proofs.«175241_j88227218194812_1_alg».proof.Proof.Gen.KernelIdeal.Skeleton
import proofs.«175241_j88227218194812_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeRows

open Cert.KernelIdeal Cert.KernelIdeal.Gen
open Idealize.ShloMosaic Idealize.ShloMosaic.TcCoe Idealize.ShloMosaic.ValueIdx

/-! ## The product's operand indices, axis by axis

At output index `i` and contraction index `q` the left operand is read at (row of `i`, `q`) and the right operand
at (`q`, column of `i`). -/

/-- The left operand's row is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into a zero accumulator, read at row `p`, column `j`: the sum over `k` of
    the left operand at `(p, k)` times the right operand at `(k, j)`. -/
theorem matmul_zero_apply {φ₁ φ₂ : FTy} (x : FVec Ideal S5000x128 φ₁) (w : FVec Ideal S128x128 φ₂) (p : Fin 5000) (j : Fin 128) :
    matmul dot_S5000x128_S128x128_S5000x128_1_0_0_1_n_n none x w (constant (F := Ideal) S5000x128 .f32 0x00000000#32) (ix2 p j)
      = ∑ k : Fin 128, x (ix2 p k) * w (ix2 k j) := by
  show FloatOps.matmul dot_S5000x128_S128x128_S5000x128_1_0_0_1_n_n none x w (constant (F := Ideal) S5000x128 .f32 0x00000000#32) (ix2 p j) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- The logistic function of a block, read at an index, is the logistic function of the entry. -/
theorem logistic_apply {s : Shape} {φ : FTy} (a : FVec Ideal s φ) (i : s.Idx) : logistic a i = Ideal.logistic (a i) := rfl

/-- The new-feature block at row `p`, column `j`. -/
theorem node_apply (v0 v1 : Vec Ideal S5000x128 .f32) (v5 v8 : Vec Ideal S128x128 .f32) (v11 : Vec Ideal S1x128 .f32)
    (v20 : Vec Ideal S128x128 .f32) (v22 : Vec Ideal S1x128 .f32) (p : Fin 5000) (j : Fin 128) :
    k1_pay1 (F := Ideal) v0 v1 v5 v8 v11 v20 v22 (ix2 p j) =
      Cert.Gcl.node (fun k => v0 (ix2 p k)) (fun k => v1 (ix2 p k)) (fun k j => v5 (ix2 k j)) (fun k j => v8 (ix2 k j))
        (fun j => v11 (ix2 0 j)) (fun k j => v20 (ix2 k j)) (fun j => v22 (ix2 0 j)) j := by
  unfold k1_pay1
  simp only [shapeCast_self, addf_apply, mulf_apply, truncf_apply, logistic_apply, matmul_zero_apply,
    broadcastTo_1b_ab_apply]
  rfl

end Cert.KernelIdeal.NodeRows

end
-- ==== Proof.NodeValue.lean ====
/-
  What the node region leaves in its result array: every node's new features, as one whole-array function of the
  arrays it finds on entry.

  The region walks the 50000 nodes in 10 blocks of 5000 rows; a row's result depends on that row of the node
  features and of the summed messages only, and the blocks tile the rows.
-/
import proofs.«175241_j88227218194812_1_alg».proof.Proof.Gen.KernelIdeal.Frame
import proofs.«175241_j88227218194812_1_alg».proof.Proof.Spec
import proofs.«175241_j88227218194812_1_alg».proof.Proof.NodeRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, as a constant function. -/
theorem hz : (![0, 0] : Fin 2 → Nat) = fun _ => 0 := funext fun a => by fin_cases a <;> rfl

/-- The region has 10 points. -/
theorem hN : cfg1.N = 10 := by decide

/-- The index maps over the grid: the two row-blocked inputs and the output are at block `(t, 0)`; the five weight
    windows stay at block `(0, 0)`. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of block `t` is row `5000 t + p` of the array. -/
abbrev arow (t : Fin cfg1.N) (p : Fin 5000) : Fin 50000 :=
  ⟨5000 * t.val + p.val, by have := t.isLt; have := p.isLt; have := hN; omega⟩

/-! ## Where a block's entry sits in its array

A block's coordinate is its block index times the block's size plus the coordinate inside the block. -/

/-- The node-feature window: entry `(p, k)` of block `t` is entry `(5000 t + p, k)` of the array. -/
theorem emb0 (t : Fin cfg1.N) (p : Fin 5000) (k : Fin 128) :
    ((cfg1.win 0).blk t).view.emb (ix2 p k) = (ix2 (arow t p) k : S50000x128.Idx) := by
  obtain ⟨e0, e1, -⟩ := idx_facts t
  funext a
  apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The summed-message window: the same rows. -/
theorem emb1 (t : Fin cfg1.N) (p : Fin 5000) (k : Fin 128) :
    ((cfg1.win 1).blk t).view.emb (ix2 p k) = (ix2 (arow t p) k : S50000x128.Idx) := by
  obtain ⟨-, -, e0, e1, -⟩ := idx_facts t
  funext a
  apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The result window: the same rows. -/
theorem emb7 (t : Fin cfg1.N) (p : Fin 5000) (k : Fin 128) :
    ((cfg1.win 7).blk t).view.emb (ix2 p k) = (ix2 (arow t p) k : S50000x128.Idx) := by
  obtain ⟨-, -, -, -, -, -, -, -, -, -, -, -, -, -, e0, e1⟩ := idx_facts t
  funext a
  apply Fin.ext
  match a with
  | ⟨0, _⟩ => show win1_7.index t (0 : Fin 2) * 5000 + 1 * p.val = 5000 * t.val + p.val; omega
  | ⟨1, _⟩ => show win1_7.index t (1 : Fin 2) * 128 + 1 * k.val = k.val; omega

/-- A weight matrix's window is the whole matrix at every point. -/
theorem emb2 (t : Fin cfg1.N) (k j : Fin 128) :
    ((cfg1.win 2).blk t).view.emb (ix2 k j) = (ix2 k j : S128x128.Idx) := by
  obtain ⟨-, -, -, -, e0, e1, -⟩ := idx_facts t
  funext a
  apply Fin.ext
  match a with
  | ⟨0, _⟩ => show win1_2.index t (0 : Fin 2) * 128 + 1 * k.val = k.val; omega
  | ⟨1, _⟩ => show win1_2.index t (1 : Fin 2) * 128 + 1 * j.val = j.val; omega
theorem emb3 (t : Fin cfg1.N) (k j : Fin 128) :
    ((cfg1.win 3).blk t).view.emb (ix2 k j) = (ix2 k j : S128x128.Idx) := by
  obtain ⟨-, -, -, -, -, -, e0, e1, -⟩ := idx_facts t
  funext a
  apply Fin.ext
  match a with
  | ⟨0, _⟩ => show win1_3.index t (0 : Fin 2) * 128 + 1 * k.val = k.val; omega
  | ⟨1, _⟩ => show win1_3.index t (1 : Fin 2) * 128 + 1 * j.val = j.val; omega
theorem emb5 (t : Fin cfg1.N) (k j : Fin 128) :
    ((cfg1.win 5).blk t).view.emb (ix2 k j) = (ix2 k j : S128x128.Idx) := by
  obtain ⟨-, -, -, -, -, -, -, -, -, -, e0, e1, -⟩ := idx_facts t
  funext a
  apply Fin.ext
  match a with
  | ⟨0, _⟩ => show win1_5.index t (0 : Fin 2) * 128 + 1 * k.val = k.val; omega
  | ⟨1, _⟩ => show win1_5.index t (1 : Fin 2) * 128 + 1 * j.val = j.val; omega
/-- A bias row's window is the whole row at every point. -/
theorem emb4 (t : Fin cfg1.N) (u : Fin 1) (j : Fin 128) :
    ((cfg1.win 4).blk t).view.emb (ix2 u j) = (ix2 u j : S1x128.Idx) := by
  obtain ⟨-, -, -, -, -, -, -, -, e0, e1, -⟩ := idx_facts t
  funext a
  apply Fin.ext
  match a with
  | ⟨0, _⟩ => show win1_4.index t (0 : Fin 2) * 1 + 1 * u.val = u.val; omega
  | ⟨1, _⟩ => show win1_4.index t (1 : Fin 2) * 128 + 1 * j.val = j.val; omega
theorem emb6 (t : Fin cfg1.N) (u : Fin 1) (j : Fin 128) :
    ((cfg1.win 6).blk t).view.emb (ix2 u j) = (ix2 u j : S1x128.Idx) := by
  obtain ⟨-, -, -, -, -, -, -, -, -, -, -, -, e0, e1, -⟩ := idx_facts t
  funext a
  apply Fin.ext
  match a with
  | ⟨0, _⟩ => show win1_6.index t (0 : Fin 2) * 1 + 1 * u.val = u.val; omega
  | ⟨1, _⟩ => show win1_6.index t (1 : Fin 2) * 128 + 1 * j.val = j.val; omega

/-! ## The input blocks, entry by entry -/

theorem blk0 (c : Dev nD) (t : Fin cfg1.N) (p : Fin 5000) (k : Fin 128) :
    (iblk1 (F := Ideal) V c 0 t : Vec Ideal S5000x128 .f32) (ix2 p k) = (V c main_arg0 : S50000x128.Idx → EReal) (ix2 (arow t p) k) := by
  unfold iblk1
  rw [View.read_apply]
  exact congrArg (V c main_arg0 : S50000x128.Idx → EReal) (emb0 t p k)
theorem blk1 (c : Dev nD) (t : Fin cfg1.N) (p : Fin 5000) (k : Fin 128) :
    (iblk1 (F := Ideal) V c 1 t : Vec Ideal S5000x128 .f32) (ix2 p k) = (V c main_v45 : S50000x128.Idx → EReal) (ix2 (arow t p) k) := by
  unfold iblk1
  rw [View.read_apply]
  exact congrArg (V c main_v45 : S50000x128.Idx → EReal) (emb1 t p k)
theorem blk2 (c : Dev nD) (t : Fin cfg1.N) (k j : Fin 128) :
    (iblk1 (F := Ideal) V c 2 t : Vec Ideal S128x128 .f32) (ix2 k j) = (V c main_v58 : S128x128.Idx → EReal) (ix2 k j) := by
  unfold iblk1
  rw [View.read_apply]
  exact congrArg (V c main_v58 : S128x128.Idx → EReal) (emb2 t k j)
theorem blk3 (c : Dev nD) (t : Fin cfg1.N) (k j : Fin 128) :
    (iblk1 (F := Ideal) V c 3 t : Vec Ideal S128x128 .f32) (ix2 k j) = (V c main_v59 : S128x128.Idx → EReal) (ix2 k j) := by
  unfold iblk1
  rw [View.read_apply]
  exact congrArg (V c main_v59 : S128x128.Idx → EReal) (emb3 t k j)
theorem blk4 (c : Dev nD) (t : Fin cfg1.N) (u : Fin 1) (j : Fin 128) :
    (iblk1 (F := Ideal) V c 4 t : Vec Ideal S1x128 .f32) (ix2 u j) = (V c main_v60 : S1x128.Idx → EReal) (ix2 u j) := by
  unfold iblk1
  rw [View.read_apply]
  exact congrArg (V c main_v60 : S1x128.Idx → EReal) (emb4 t u j)
theorem blk5 (c : Dev nD) (t : Fin cfg1.N) (k j : Fin 128) :
    (iblk1 (F := Ideal) V c 5 t : Vec Ideal S128x128 .f32) (ix2 k j) = (V c main_arg9 : S128x128.Idx → EReal) (ix2 k j) := by
  unfold iblk1
  rw [View.read_apply]
  exact congrArg (V c main_arg9 : S128x128.Idx → EReal) (emb5 t k j)
theorem blk6 (c : Dev nD) (t : Fin cfg1.N) (u : Fin 1) (j : Fin 128) :
    (iblk1 (F := Ideal) V c 6 t : Vec Ideal S1x128 .f32) (ix2 u j) = (V c main_v61 : S1x128.Idx → EReal) (ix2 u j) := by
  unfold iblk1
  rw [View.read_apply]
  exact congrArg (V c main_v61 : S1x128.Idx → EReal) (emb6 t u j)

/-- All nodes' new features, of the arrays the region finds on entry. -/
abbrev G (c : Dev nD) : S50000x128.Idx → EReal :=
  Cert.Gcl.nodeArr (V c main_arg0) (V c main_v45) (fun k j => V c main_v58 (ix2 k j)) (fun k j => V c main_v59 (ix2 k j))
    (fun j => V c main_v60 (ix2 0 j)) (fun k j => V c main_arg9 (ix2 k j)) (fun j => V c main_v61 (ix2 0 j))

/-- What point `t` writes back is block `t` of `G`. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  rw [View.read_apply, emb7]
  show k1_pay1 (F := Ideal) (iblk1 V c 0 t) (iblk1 V c 1 t) (iblk1 V c 2 t) (iblk1 V c 3 t) (iblk1 V c 4 t) (iblk1 V c 5 t) (iblk1 V c 6 t) (ix2 p q) = _
  rw [Cert.KernelIdeal.NodeRows.node_apply]
  simp only [blk0 V c t, blk1 V c t, blk2 V c t, blk3 V c t, blk4 V c t, blk5 V c t, blk6 V c t]
  rfl

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v62).slice (win1_7.rect t)).set ↔ _
  rw [View.set_slice_whole, Rect.mem_set_unit]
  exact Iff.rfl

/-- Row `r` is in block `r / 5000`: the ten blocks tile the array. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hn := hN
  refine ⟨⟨(i 0).val / 5000, by omega⟩, flush1_7 _, ?_⟩
  rw [mem_blk]
  obtain ⟨-, -, -, -, -, -, -, -, -, -, -, -, -, -, e0, e1⟩ := idx_facts ⟨(i 0).val / 5000, by omega⟩
  intro a
  match a with
  | ⟨0, _⟩ =>
    show win1_7.index _ (0 : Fin 2) * 5000 ≤ (i 0).val ∧ (i 0).val < win1_7.index _ (0 : Fin 2) * 5000 + 5000
    rw [e0]
    show (i 0).val / 5000 * 5000 ≤ (i 0).val ∧ (i 0).val < (i 0).val / 5000 * 5000 + 5000
    omega
  | ⟨1, _⟩ =>
    show win1_7.index _ (1 : Fin 2) * 128 ≤ (i 1).val ∧ (i 1).val < win1_7.index _ (1 : Fin 2) * 128 + 128
    rw [e1]
    omega

/-- The new node features after the region. -/
theorem node_arr (c : Dev nD) : (dat1 (F := Ideal) V c).arrAt 7 cfg1.N =
    Cert.Gcl.nodeArr (V c main_arg0) (V c main_v45) (fun k j => V c main_v58 (ix2 k j)) (fun k j => V c main_v59 (ix2 k j))
      (fun j => V c main_v60 (ix2 0 j)) (fun k j => V c main_arg9 (ix2 k j)) (fun j => V c main_v61 (ix2 0 j)) :=
  (dat1 (F := Ideal) V c).arrAt_eq_of_cover 7 (G V c) (fun t _ => flushed_eq V c t) cover

end Cert.KernelIdeal.NodeValue

end
-- ==== Proof.RefEdge.lean ====
/-
  The reference's three heavy stages as the layer's whole-array functions.

  The reference joins the two gathered feature arrays and the squared distance into one array of 257 columns and
  contracts it with the whole first weight matrix; a sum over the 257 joined columns is the sum over the first
  128, the next 128 and the last one, and on each part the joined array is the part it came from. Its `silu` is
  spelt `z · (1 / (1 + e^(-z)))`, which is `z · σ(z)`. The node stage joins the old features and the summed
  messages into 256 columns in the same way.
-/
import proofs.«175241_j88227218194812_1_alg».proof.Proof.Gen.ReferenceIdeal.Read
import proofs.«175241_j88227218194812_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefEdge

open Cert.ReferenceIdeal Cert.ReferenceIdeal.Read
open Idealize.ShloMosaic Idealize.ShloMosaic.TcCoe Idealize.ShloMosaic.ValueIdx
open Cert.ReferenceIdeal.Gen

/-! ## The joined array, part by part -/

/-- The joined array on its first 128 columns is the first part. -/
theorem cat_first {α : Type} (y0 y1 : S800000x128.Idx → α) (y2 : S800000x1.Idx → α) (e : Fin 800000) (k : Fin 128) :
    concatenate S800000x257 1 [⟨S800000x128, y0⟩, ⟨S800000x128, y1⟩, ⟨S800000x1, y2⟩]
      concatenates_S800000x128_S800000x128_S800000x1_S800000x257_d1 (ix2 e (⟨k.val, by omega⟩ : Fin 257)) = y0 (ix2 e k) := by
  refine concatenate_apply_piece (1 : Fin S800000x257.rank) [⟨S800000x128, y0⟩, ⟨S800000x128, y1⟩, ⟨S800000x1, y2⟩] _ _ 0 (show 0 < 3 by omega) S800000x128 y0 rfl rfl 0 rfl (ix2 e k) ?_ ?_
  · intro b hb
    match b with
    | ⟨0, _⟩ => rfl
    | ⟨1, _⟩ => exact absurd rfl hb
  · show 0 + k.val = k.val
    omega

/-- The joined array on its next 128 columns is the second part. -/
theorem cat_second {α : Type} (y0 y1 : S800000x128.Idx → α) (y2 : S800000x1.Idx → α) (e : Fin 800000) (k : Fin 128) :
    concatenate S800000x257 1 [⟨S800000x128, y0⟩, ⟨S800000x128, y1⟩, ⟨S800000x1, y2⟩]
      concatenates_S800000x128_S800000x128_S800000x1_S800000x257_d1 (ix2 e (⟨128 + k.val, by omega⟩ : Fin 257)) = y1 (ix2 e k) := by
  refine concatenate_apply_piece (1 : Fin S800000x257.rank) [⟨S800000x128, y0⟩, ⟨S800000x128, y1⟩, ⟨S800000x1, y2⟩] _ _ 1 (show 1 < 3 by omega) S800000x128 y1 rfl rfl 128 rfl (ix2 e k) ?_ ?_
  · intro b hb
    match b with
    | ⟨0, _⟩ => rfl
    | ⟨1, _⟩ => exact absurd rfl hb
  · show 128 + k.val = 128 + k.val
    rfl

/-- The joined array's last column is the third part. -/
theorem cat_third {α : Type} (y0 y1 : S800000x128.Idx → α) (y2 : S800000x1.Idx → α) (e : Fin 800000) :
    concatenate S800000x257 1 [⟨S800000x128, y0⟩, ⟨S800000x128, y1⟩, ⟨S800000x1, y2⟩]
      concatenates_S800000x128_S800000x128_S800000x1_S800000x257_d1 (ix2 e (⟨256, by omega⟩ : Fin 257)) = y2 (ix2 e 0) := by
  refine concatenate_apply_piece (1 : Fin S800000x257.rank) [⟨S800000x128, y0⟩, ⟨S800000x128, y1⟩, ⟨S800000x1, y2⟩] _ _ 2 (show 2 < 3 by omega) S800000x1 y2 rfl rfl 256 rfl (ix2 e 0) ?_ ?_
  · intro b hb
    match b with
    | ⟨0, _⟩ => rfl
    | ⟨1, _⟩ => exact absurd rfl hb
  · show 256 + 0 = 256
    rfl

/-- The reference's joined array on its first 128 columns is the gathered row-node features. -/
theorem joined_first (x0 : (⟨S50000x128, .f32⟩ : BufTy).Contents (Elt Ideal)) (x1 : (⟨S2x800000, .i32⟩ : BufTy).Contents (Elt Ideal)) (x2 : (⟨S50000x3, .f32⟩ : BufTy).Contents (Elt Ideal)) (e : Fin 800000) (k : Fin 128) :
    val_main_v36 (F := Ideal) x0 x1 x2 (ix2 e (⟨k.val, by omega⟩ : Fin 257)) = val_main_v28 (F := Ideal) x0 x1 (ix2 e k) := by
  unfold val_main_v36
  generalize val_main_v28 (F := Ideal) x0 x1 = y0
  generalize val_main_v35 (F := Ideal) x0 x1 = y1
  generalize val_main_v21 (F := Ideal) x1 x2 = y2
  exact cat_first y0 y1 y2 e k

/-- On its next 128 columns it is the gathered column-node features. -/
theorem joined_second (x0 : (⟨S50000x128, .f32⟩ : BufTy).Contents (Elt Ideal)) (x1 : (⟨S2x800000, .i32⟩ : BufTy).Contents (Elt Ideal)) (x2 : (⟨S50000x3, .f32⟩ : BufTy).Contents (Elt Ideal)) (e : Fin 800000) (k : Fin 128) :
    val_main_v36 (F := Ideal) x0 x1 x2 (ix2 e (⟨128 + k.val, by omega⟩ : Fin 257)) = val_main_v35 (F := Ideal) x0 x1 (ix2 e k) := by
  unfold val_main_v36
  generalize val_main_v28 (F := Ideal) x0 x1 = y0
  generalize val_main_v35 (F := Ideal) x0 x1 = y1
  generalize val_main_v21 (F := Ideal) x1 x2 = y2
  exact cat_second y0 y1 y2 e k

/-- Its last column is the squared distance. -/
theorem joined_third (x0 : (⟨S50000x128, .f32⟩ : BufTy).Contents (Elt Ideal)) (x1 : (⟨S2x800000, .i32⟩ : BufTy).Contents (Elt Ideal)) (x2 : (⟨S50000x3, .f32⟩ : BufTy).Contents (Elt Ideal)) (e : Fin 800000) :
    val_main_v36 (F := Ideal) x0 x1 x2 (ix2 e (⟨256, by omega⟩ : Fin 257)) = val_main_v21 (F := Ideal) x1 x2 (ix2 e 0) := by
  unfold val_main_v36
  generalize val_main_v28 (F := Ideal) x0 x1 = y0
  generalize val_main_v35 (F := Ideal) x0 x1 = y1
  generalize val_main_v21 (F := Ideal) x1 x2 = y2
  exact cat_third y0 y1 y2 e

/-! ## `silu` as the reference spells it -/

/-- The word of `1.0` denotes the number one. -/
theorem one_word : Ideal.ofBits .f32 0x3F800000#32 = 1 := IdealRules.sign_bit.ideal_onePat .f32

/-- `z · (1 / (1 + e^(-z)))` is `z · σ(z)`. -/
theorem silu_spelt (z : Ideal .f32) :
    FloatOps.mulf z (FloatOps.hostDivf (FloatOps.ofBits .f32 0x3F800000#32)
      (FloatOps.addf (FloatOps.ofBits .f32 0x3F800000#32) (FloatOps.hostUnary .exp (FloatOps.hostNegf z)))) = Cert.Gcl.silu z := by
  simp only [Ideal.mulf_def, Ideal.hostDivf_def, Ideal.ofBits_def, Ideal.addf_def, Ideal.hostUnary_exp_def,
    Ideal.hostNegf_def, Ideal.negf_def, one_word]
  rfl

/-! ## The first edge layer -/

/-- The contraction of the joined array with the whole first weight matrix, at an edge `e` and a column `j`:
    the sum over the 257 joined columns, part by part. -/
theorem dense1_at (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (e : Fin 800000) (j : Fin 128) :
    val_main_v37 (F := Ideal) x0 x1 x2 x3 (ix2 e j) =
      ((∑ k : Fin 128, val_main_v28 (F := Ideal) x0 x1 (ix2 e k) * x3 (ix2 (⟨k.val, by omega⟩ : Fin 257) j))
        + (∑ k : Fin 128, val_main_v35 (F := Ideal) x0 x1 (ix2 e k) * x3 (ix2 (⟨128 + k.val, by omega⟩ : Fin 257) j)))
        + val_main_v21 (F := Ideal) x1 x2 (ix2 e 0) * x3 (ix2 (⟨256, by omega⟩ : Fin 257) j) := by
  have hl : ∀ k : Fin 257, lidx_main_v37 (ix2 e j) k = ix2 e k := fun k => funext fun a => Fin.ext (by match a with | ⟨0, _⟩ => rfl | ⟨1, _⟩ => rfl)
  have hr : ∀ k : Fin 257, ridx_main_v37 (ix2 e j) k = ix2 k j := fun k => funext fun a => Fin.ext (by match a with | ⟨0, _⟩ => rfl | ⟨1, _⟩ => rfl)
  rw [val_main_v37_apply, Cert.Gcl.sum_257]
  simp only [hl, hr, joined_first, joined_second, joined_third]

/-- The first hidden row of edge `e`, entry `j`. -/
theorem hid_at (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (e : Fin 800000) (j : Fin 128) :
    val_main_v41 (F := Ideal) x0 x1 x2 x3 x4 (ix2 e j) =
      Cert.Gcl.hid (fun k => val_main_v28 (F := Ideal) x0 x1 (ix2 e k)) (fun k => val_main_v35 (F := Ideal) x0 x1 (ix2 e k))
        (val_main_v21 (F := Ideal) x1 x2 (ix2 e 0))
        (fun k j => x3 (ix2 (⟨k.val, by omega⟩ : Fin 257) j)) (fun k j => x3 (ix2 (⟨128 + k.val, by omega⟩ : Fin 257) j))
        (fun j => x3 (ix2 (⟨256, by omega⟩ : Fin 257) j)) (fun j => x4 (ix1 j)) j := by
  have hb : idx_main_v38 (idx_main_v39 (ix2 e j)) = ix1 j := funext fun a => Fin.ext (by match a with | ⟨0, _⟩ => rfl)
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, silu_spelt, val_main_v40_apply, val_main_v39_apply, val_main_v38_apply, hb, dense1_at,
    Ideal.addf_def]
  generalize val_main_v28 (F := Ideal) x0 x1 = xr
  generalize val_main_v35 (F := Ideal) x0 x1 = xc
  generalize val_main_v21 (F := Ideal) x1 x2 = rad
  rfl

/-! ## A dense layer of width 128 followed by `silu` -/

/-- The edge's message, entry `j`: the second layer on the first hidden row. -/
theorem msg_at (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) (j : Fin 128) :
    val_main_v46 (F := Ideal) x0 x1 x2 x3 x4 x5 x6 (ix2 e j) =
      Cert.Gcl.layer (fun k => val_main_v41 (F := Ideal) x0 x1 x2 x3 x4 (ix2 e k)) (fun k j => x5 (ix2 k j))
        (fun j => x6 (ix1 j)) j := by
  have hl : ∀ k : Fin 128, lidx_main_v42 (ix2 e j) k = ix2 e k := fun k => funext fun a => Fin.ext (by match a with | ⟨0, _⟩ => rfl | ⟨1, _⟩ => rfl)
  have hr : ∀ k : Fin 128, ridx_main_v42 (ix2 e j) k = ix2 k j := fun k => funext fun a => Fin.ext (by match a with | ⟨0, _⟩ => rfl | ⟨1, _⟩ => rfl)
  have hb : idx_main_v43 (idx_main_v44 (ix2 e j)) = ix1 j := funext fun a => Fin.ext (by match a with | ⟨0, _⟩ => rfl)
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, silu_spelt, val_main_v45_apply, val_main_v44_apply, val_main_v43_apply, hb,
    val_main_v42_apply, Ideal.addf_def]
  simp only [hl, hr]
  generalize val_main_v41 (F := Ideal) x0 x1 x2 x3 x4 = h
  rfl

/-- The hidden row of the gate's perceptron, entry `k`: its first layer on the edge's message row. -/
theorem gate_hid_at (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (e : Fin 800000) (k : Fin 128) :
    val_main_v51 (F := Ideal) x0 x1 x2 x3 x4 x5 x6 x11 x12 (ix2 e k) =
      Cert.Gcl.layer (fun l => val_main_v46 (F := Ideal) x0 x1 x2 x3 x4 x5 x6 (ix2 e l)) (fun k j => x11 (ix2 k j))
        (fun j => x12 (ix1 j)) k := by
  have hl : ∀ l : Fin 128, lidx_main_v47 (ix2 e k) l = ix2 e l := fun l => funext fun a => Fin.ext (by match a with | ⟨0, _⟩ => rfl | ⟨1, _⟩ => rfl)
  have hr : ∀ l : Fin 128, ridx_main_v47 (ix2 e k) l = ix2 l k := fun l => funext fun a => Fin.ext (by match a with | ⟨0, _⟩ => rfl | ⟨1, _⟩ => rfl)
  have hb : idx_main_v48 (idx_main_v49 (ix2 e k)) = ix1 k := funext fun a => Fin.ext (by match a with | ⟨0, _⟩ => rfl)
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, silu_spelt, val_main_v50_apply, val_main_v49_apply, val_main_v48_apply, hb,
    val_main_v47_apply, Ideal.addf_def]
  simp only [hl, hr]
  generalize val_main_v46 (F := Ideal) x0 x1 x2 x3 x4 x5 x6 = f
  rfl

/-! ## The two stages as the layer's functions -/

/-- The reference's messages (its second `silu`) are the layer's messages of its own gathered arrays, the
    first weight matrix read in its three parts and the bias vectors entry by entry. -/
theorem msg_eq (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v46 (F := Ideal) x0 x1 x2 x3 x4 x5 x6 =
      Cert.Gcl.msgArr (val_main_v28 (F := Ideal) x0 x1) (val_main_v35 (F := Ideal) x0 x1) (val_main_v21 (F := Ideal) x1 x2)
        (fun k j => x3 (ix2 (⟨k.val, by omega⟩ : Fin 257) j)) (fun k j => x3 (ix2 (⟨128 + k.val, by omega⟩ : Fin 257) j))
        (fun j => x3 (ix2 (⟨256, by omega⟩ : Fin 257) j)) (fun j => x4 (ix1 j)) (fun k j => x5 (ix2 k j)) (fun j => x6 (ix1 j)) := by
  funext i
  obtain ⟨e, j, rfl⟩ : ∃ (e : Fin 800000) (j : Fin 128), i = ix2 e j := ⟨i 0, i 1, eq_ix2 i⟩
  rw [msg_at]
  simp only [hid_at]
  generalize val_main_v28 (F := Ideal) x0 x1 = xr
  generalize val_main_v35 (F := Ideal) x0 x1 = xc
  generalize val_main_v21 (F := Ideal) x1 x2 = rad
  rfl

/-- The reference's coordinate moves are the coordinate differences times the gate of its messages. -/
theorem shift_eq (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) :
    val_main_v54 (F := Ideal) x0 x1 x2 x3 x4 x5 x6 x11 x12 x13 =
      Cert.Gcl.shiftArr (val_main_v18 (F := Ideal) x1 x2) (val_main_v46 (F := Ideal) x0 x1 x2 x3 x4 x5 x6)
        (fun k j => x11 (ix2 k j)) (fun j => x12 (ix1 j)) (fun k => x13 (ix2 k 0)) := by
  funext i
  obtain ⟨e, c, rfl⟩ : ∃ (e : Fin 800000) (c : Fin 3), i = ix2 e c := ⟨i 0, i 1, eq_ix2 i⟩
  have hl : ∀ k : Fin 128, lidx_main_v52 (idx_main_v53 (ix2 e c)) k = ix2 e k := fun k => funext fun a => Fin.ext (by match a with | ⟨0, _⟩ => rfl | ⟨1, _⟩ => rfl)
  have hr : ∀ k : Fin 128, ridx_main_v52 (idx_main_v53 (ix2 e c)) k = ix2 k 0 := fun k => funext fun a => Fin.ext (by match a with | ⟨0, _⟩ => rfl | ⟨1, _⟩ => rfl)
  rw [val_main_v54_apply, val_main_v53_apply, val_main_v52_apply, Ideal.mulf_def]
  simp only [hl, hr, gate_hid_at]
  generalize val_main_v18 (F := Ideal) x1 x2 = cd
  generalize val_main_v46 (F := Ideal) x0 x1 x2 x3 x4 x5 x6 = f
  rfl

end Cert.ReferenceIdeal.RefEdge

end
-- ==== Proof.RefNode.lean ====
/-
  The reference's three heavy stages as the layer's whole-array functions.

  The reference joins the two gathered feature arrays and the squared distance into one array of 257 columns and
  contracts it with the whole first weight matrix; a sum over the 257 joined columns is the sum over the first
  128, the next 128 and the last one, and on each part the joined array is the part it came from. Its `silu` is
  spelt `z · (1 / (1 + e^(-z)))`, which is `z · σ(z)`. The node stage joins the old features and the summed
  messages into 256 columns in the same way.
-/
import proofs.«175241_j88227218194812_1_alg».proof.Proof.Gen.ReferenceIdeal.Read
import proofs.«175241_j88227218194812_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefNode

open Cert.ReferenceIdeal Cert.ReferenceIdeal.Read Cert.ReferenceIdeal.Gen
open Idealize.ShloMosaic Idealize.ShloMosaic.TcCoe Idealize.ShloMosaic.ValueIdx

/-- The word of the constant one is the extended real one. -/
theorem one_word : Ideal.ofBits .f32 0x3F800000#32 = 1 := by
  rw [show (1 : EReal) = ((1 : ℝ) : EReal) by norm_cast]
  simp [Ideal.ofBits, Ideal.ieee, -EReal.coe_mul]; norm_num

/-! ### The index maps of the stages, at an index given by its coordinates -/

theorem lidx71 (n : Fin 50000) (j : Fin 128) (k : Fin 256) : lidx_main_v71 (ix2 n j) k = ix2 n k :=
  funext fun a => Fin.ext (by match a with | ⟨0, _⟩ => rfl | ⟨1, _⟩ => rfl)

theorem ridx71 (n : Fin 50000) (j : Fin 128) (k : Fin 256) : ridx_main_v71 (ix2 n j) k = ix2 k j :=
  funext fun a => Fin.ext (by match a with | ⟨0, _⟩ => rfl | ⟨1, _⟩ => rfl)

theorem lidx76 (n : Fin 50000) (j : Fin 128) (k : Fin 128) : lidx_main_v76 (ix2 n j) k = ix2 n k :=
  funext fun a => Fin.ext (by match a with | ⟨0, _⟩ => rfl | ⟨1, _⟩ => rfl)

theorem ridx76 (n : Fin 50000) (j : Fin 128) (k : Fin 128) : ridx_main_v76 (ix2 n j) k = ix2 k j :=
  funext fun a => Fin.ext (by match a with | ⟨0, _⟩ => rfl | ⟨1, _⟩ => rfl)

theorem idx7273 (n : Fin 50000) (j : Fin 128) : idx_main_v72 (idx_main_v73 (ix2 n j)) = ix1 j :=
  funext fun a => Fin.ext (by match a with | ⟨0, _⟩ => rfl)

theorem idx7778 (n : Fin 50000) (j : Fin 128) : idx_main_v77 (idx_main_v78 (ix2 n j)) = ix1 j :=
  funext fun a => Fin.ext (by match a with | ⟨0, _⟩ => rfl)

/-! ### The joined array of 256 columns is, on each half, the array it came from -/

/-- In its first 128 columns the joined array is the old features. -/
theorem joined_left (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 50000) (k : Fin 128) :
    val_main_v70 (F := Ideal) x0 x1 x2 x3 x4 x5 x6 (ix2 n (⟨k.val, by omega⟩ : Fin 256)) = x0 (ix2 n k) := by
  unfold val_main_v70
  generalize val_main_v69 (F := Ideal) x0 x1 x2 x3 x4 x5 x6 = g
  exact concatenate_pair_apply_left (1 : Fin S50000x256.rank) x0 g concatenates_S50000x128_S50000x128_S50000x256_d1 _ rfl
    (ix2 n k) (fun b => match b with | ⟨0, _⟩ => rfl | ⟨1, _⟩ => rfl)

/-- In its last 128 columns the joined array is the summed messages. -/
theorem joined_right (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 50000) (k : Fin 128) :
    val_main_v70 (F := Ideal) x0 x1 x2 x3 x4 x5 x6 (ix2 n (⟨128 + k.val, by omega⟩ : Fin 256)) =
      val_main_v69 (F := Ideal) x0 x1 x2 x3 x4 x5 x6 (ix2 n k) := by
  unfold val_main_v70
  generalize val_main_v69 (F := Ideal) x0 x1 x2 x3 x4 x5 x6 = g
  exact concatenate_pair_apply_right (1 : Fin S50000x256.rank) x0 g concatenates_S50000x128_S50000x128_S50000x256_d1 _ rfl rfl
    (ix2 n k) (fun b => match b with | ⟨0, _⟩ => fun _ => rfl | ⟨1, _⟩ => fun h => absurd rfl h)
    (by show k.val + 128 = 128 + k.val; omega)

/-! ### The node perceptron's first layer -/

/-- Before the activation, entry k of node n's hidden row: the old row against the first half of the matrix, the
    summed messages against the second half, and the bias. -/
theorem pre_eq (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (n : Fin 50000) (k : Fin 128) :
    val_main_v74 (F := Ideal) x0 x1 x2 x3 x4 x5 x6 x7 x8 (ix2 n k) =
      ((∑ l : Fin 128, x0 (ix2 n l) * x7 (ix2 (⟨l.val, by omega⟩ : Fin 256) k)) +
        (∑ l : Fin 128, val_main_v69 (F := Ideal) x0 x1 x2 x3 x4 x5 x6 (ix2 n l) * x7 (ix2 (⟨128 + l.val, by omega⟩ : Fin 256) k))) +
        x8 (ix1 k) := by
  rw [val_main_v74_apply, val_main_v71_apply, val_main_v73_apply, val_main_v72_apply, Cert.Gcl.sum_256]
  simp only [lidx71, ridx71, idx7273, joined_left, joined_right, Ideal.addf_def]

/-- The reference's z · (1 / (1 + e^(-z))) is the specification's activation of z. -/
theorem act_eq (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (i : S50000x128.Idx) :
    val_main_v75 (F := Ideal) x0 x1 x2 x3 x4 x5 x6 x7 x8 i = Cert.Gcl.silu (val_main_v74 (F := Ideal) x0 x1 x2 x3 x4 x5 x6 x7 x8 i) := by
  rw [val_main_v75_apply, val_main_call4_v5_apply, val_main_call4_v4_apply, val_main_call4_cst_0_apply,
    val_main_call4_v3_apply, val_main_call4_v2_apply, val_main_call4_cst_apply, val_main_call4_v1_apply,
    val_main_call4_v0_apply]
  generalize val_main_v74 (F := Ideal) x0 x1 x2 x3 x4 x5 x6 x7 x8 i = z
  simp only [Ideal.mulf_def, Ideal.hostDivf_def, Ideal.addf_def, Ideal.hostUnary_exp_def, Ideal.hostNegf_def,
    Ideal.negf_def, Ideal.ofBits_def, one_word]
  rfl

/-- The reference's new node features are the layer's, of the old features and its summed messages, the node
    perceptron's first matrix read in its two halves. -/
theorem node_eq (x0 : (⟨S50000x128, .f32⟩ : BufTy).Contents (Elt Ideal)) (x1 : (⟨S2x800000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v80 (F := Ideal) x0 x1 x2 x3 x4 x5 x6 x7 x8 x9 x10 =
      Cert.Gcl.nodeArr x0 (val_main_v69 (F := Ideal) x0 x1 x2 x3 x4 x5 x6)
        (fun k j => x7 (ix2 (⟨k.val, by omega⟩ : Fin 256) j)) (fun k j => x7 (ix2 (⟨128 + k.val, by omega⟩ : Fin 256) j))
        (fun j => x8 (ix1 j)) (fun k j => x9 (ix2 k j)) (fun j => x10 (ix1 j)) := by
  funext i
  obtain ⟨n, j, rfl⟩ : ∃ (n : Fin 50000) (j : Fin 128), i = ix2 n j := ⟨i 0, i 1, eq_ix2 i⟩
  rw [val_main_v80_apply, val_main_v79_apply, val_main_v78_apply, val_main_v77_apply, val_main_v76_apply]
  simp only [lidx76, ridx76, idx7778, act_eq, pre_eq, Ideal.addf_def]
  rfl

end Cert.ReferenceIdeal.RefNode

end
-- ==== Proof.Bridge.lean ====
/-
  The kernel program's two results are the reference's two results, as functions of the launch arguments.

  New node features: the node region leaves the layer's node function of the old features and the summed
  messages it finds; the summed messages are the scatter-sum, by row node, of what the edge region left, which is
  the layer's message function of the gathered features and squared distances; and the reference's stages are
  the same functions of the same gathered arrays, scattered by the same indices. New coordinates: the old ones
  plus the scatter-sum of the edge region's moves divided by the clipped edge counts, the same host operations
  in both programs applied to equal arrays.
-/
import proofs.«175241_j88227218194812_1_alg».proof.Proof.Gen.KernelIdeal.Frame
import proofs.«175241_j88227218194812_1_alg».proof.Proof.Gen.ReferenceIdeal.Read
import proofs.«175241_j88227218194812_1_alg».proof.Proof.Spec
import proofs.«175241_j88227218194812_1_alg».proof.Proof.HostIn
import proofs.«175241_j88227218194812_1_alg».proof.Proof.HostRef
import proofs.«175241_j88227218194812_1_alg».proof.Proof.EdgeValue
import proofs.«175241_j88227218194812_1_alg».proof.Proof.NodeValue
import proofs.«175241_j88227218194812_1_alg».proof.Proof.RefEdge
import proofs.«175241_j88227218194812_1_alg».proof.Proof.RefNode

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- What the edge region leaves as messages is the reference's message stage: the layer's message function of
    arrays that are equal one by one. -/
theorem msg_bridge (c : Dev nD) : (dat0 (F := Ideal) (V1 m ρ) c).arrAt 13 cfg0.N =
    Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.KernelIdeal.EdgeValue.msg_arr (V1 m ρ) c, Cert.ReferenceIdeal.RefEdge.msg_eq]
  refine congr (congr (congr (congr (congr (congr (congr (congr (congrArg Cert.Gcl.msgArr ?_) ?_) ?_) ?_) ?_) ?_) ?_) ?_) ?_
  · exact Cert.KernelIdeal.HostRef.xr_eq m ρ c
  · exact Cert.KernelIdeal.HostRef.xc_eq m ρ c
  · exact Cert.KernelIdeal.HostRef.rad_eq m ρ c
  · exact funext fun k => funext fun j => Cert.KernelIdeal.HostIn.w1a_at m ρ c k j
  · exact funext fun k => funext fun j => Cert.KernelIdeal.HostIn.w1b_at m ρ c k j
  · exact funext fun j => Cert.KernelIdeal.HostIn.w1r_at m ρ c j
  · exact funext fun j => Cert.KernelIdeal.HostIn.b1_at m ρ c j
  · exact funext fun k => funext fun j => congrFun (Cert.KernelIdeal.HostIn.w2_eq m ρ c) (ix2 k j)
  · exact funext fun j => Cert.KernelIdeal.HostIn.b2_at m ρ c j

/-- What the edge region leaves as coordinate moves is the reference's move stage. -/
theorem shift_bridge (c : Dev nD) : (dat0 (F := Ideal) (V1 m ρ) c).arrAt 14 cfg0.N =
    Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  rw [Cert.KernelIdeal.EdgeValue.shift_arr (V1 m ρ) c, Cert.ReferenceIdeal.RefEdge.shift_eq]
  refine congr (congr (congr (congr (congrArg Cert.Gcl.shiftArr ?_) ?_) ?_) ?_) ?_
  · exact Cert.KernelIdeal.HostRef.diff_eq m ρ c
  · exact (Cert.KernelIdeal.EdgeValue.msg_arr (V1 m ρ) c).symm.trans (msg_bridge m ρ c)
  · exact funext fun k => funext fun j => congrFun (Cert.KernelIdeal.HostIn.wc1_eq m ρ c) (ix2 k j)
  · exact funext fun j => Cert.KernelIdeal.HostIn.bc1_at m ρ c j
  · exact funext fun k => congrFun (Cert.KernelIdeal.HostIn.wc2_eq m ρ c) (ix2 k 0)

set_option maxHeartbeats 2000000 in
/-- The summed messages the node region finds are the reference's: the same scatter-sum, by the same row-node
    indices, of equal message arrays. -/
theorem agg_eq (c : Dev nD) : V5 (F := Ideal) m ρ c main_v45 =
    Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1_2 (StableHlo.after hostOps1_1 (StableHlo.after hostOps1 (W2 m ρ c))) (Proc.devRef .tc main_v45) = _
  after_results_simp
  have h13 : W2 (F := Ideal) m ρ c (Proc.devRef .tc main_v42_0) = (dat0 (V1 m ρ) c).arrAt 13 cfg0.N := W2_arr m ρ c 13
  have h1 : W2 (F := Ideal) m ρ c (Proc.devRef .tc main_v1) = V1 m ρ c main_v1 := W2_of_ne m ρ c main_v1 (by decide)
  rw [h13, h1, msg_bridge, Cert.KernelIdeal.HostRef.rowidx_eq]
  unfold Cert.ReferenceIdeal.Read.val_main_v69
  rfl

/-- The kernel program's new node features are the reference's. -/
theorem xout_eq (c : Dev nD) : W6 (F := Ideal) m ρ c (Proc.devRef .tc main_v62) =
    Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h7 : W6 (F := Ideal) m ρ c (Proc.devRef .tc main_v62) = (dat1 (V5 m ρ) c).arrAt 7 cfg1.N := W6_arr m ρ c 7
  rw [h7, Cert.KernelIdeal.NodeValue.node_arr (V5 m ρ) c, Cert.ReferenceIdeal.RefNode.node_eq]
  refine congr (congr (congr (congr (congr (congr (congrArg Cert.Gcl.nodeArr ?_) ?_) ?_) ?_) ?_) ?_) ?_
  · exact Cert.KernelIdeal.HostIn.x_eq m ρ c
  · exact agg_eq m ρ c
  · exact funext fun k => funext fun j => Cert.KernelIdeal.HostIn.wx_at m ρ c k j
  · exact funext fun k => funext fun j => Cert.KernelIdeal.HostIn.wg_at m ρ c k j
  · exact funext fun j => Cert.KernelIdeal.HostIn.bn1_at m ρ c j
  · exact funext fun k => funext fun j => congrFun (Cert.KernelIdeal.HostIn.wn2_eq m ρ c) (ix2 k j)
  · exact funext fun j => Cert.KernelIdeal.HostIn.bn2_at m ρ c j

set_option maxHeartbeats 2000000 in
/-- The host operations between the two regions that make the new coordinates, from ANY contents at the edge
    region's exit and for any float values: the old coordinates plus the scatter-sum of the move array, by the
    row-node indices, over the clipped edge counts, spelt as the reference spells its own stages. Nothing here
    looks inside an operation: the two spellings are the same operations in the same order. -/
theorem coord_host {F : FTy → Type} [FloatOps F] (V2 : Valuation τ sig (Elt F))
    (x1 : (⟨S2x800000, .i32⟩ : BufTy).Contents (Elt F)) (x2 : (⟨S50000x3, .f32⟩ : BufTy).Contents (Elt F))
    (u : (⟨S800000x3, .f32⟩ : BufTy).Contents (Elt F))
    (hrow : V2 (Proc.devRef .tc main_v1) = Cert.ReferenceIdeal.Read.val_main_v1 (F := F) x1)
    (h2 : V2 (Proc.devRef .tc main_arg2) = x2) (hu : V2 (Proc.devRef .tc main_v42_1) = u) :
    StableHlo.after hostOps1_2 (StableHlo.after hostOps1_1 (StableHlo.after hostOps1 V2)) (Proc.devRef .tc main_v57) =
      addf x2 (Host.divf (Host.scatterAdd Cert.ReferenceIdeal.scatter_S50000x3_S800000x1_S800000x3_1_0_0_1
        (Cert.ReferenceIdeal.Read.val_main_v55 (F := F)) (Cert.ReferenceIdeal.Read.val_main_v56 (F := F) x1) u)
        (Cert.ReferenceIdeal.Read.val_main_v64 (F := F) x1)) := by
  after_results_simp
  rw [hrow, h2, hu]
  rfl

/-- The kernel program's new coordinates are the reference's: the same host operations applied to the old
    coordinates, the same row-node indices and equal move arrays. -/
theorem coord_eq (c : Dev nD) : W6 (F := Ideal) m ρ c (Proc.devRef .tc main_v57) =
    Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  rw [W6_of_ne m ρ c main_v57 (by decide)]
  have h14 : W2 (F := Ideal) m ρ c (Proc.devRef .tc main_v42_1) = (dat0 (V1 m ρ) c).arrAt 14 cfg0.N := W2_arr m ρ c 14
  have h1 : W2 (F := Ideal) m ρ c (Proc.devRef .tc main_v1) = V1 m ρ c main_v1 := W2_of_ne m ρ c main_v1 (by decide)
  refine (coord_host (W2 m ρ c) (m ((c : Thread nD τ).loc main_arg1)) (m ((c : Thread nD τ).loc main_arg2))
    (Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)))
    (h1.trans (Cert.KernelIdeal.HostRef.rowidx_eq m ρ c)) (Cert.KernelIdeal.HostIn.exit0_arg2 m ρ c) (h14.trans (shift_bridge m ρ c))).trans ?_
  unfold Cert.ReferenceIdeal.Read.val_main_v66 Cert.ReferenceIdeal.Read.val_main_v65 Cert.ReferenceIdeal.Read.val_main_v57
  rfl

end Cert.KernelIdeal.Bridge

end
-- ==== Proof.lean ====
/-
  One equivariant graph-convolution layer: a kernel program of two pipelined regions (the edge perceptron with
  the coordinate gate, and the node perceptron) among host gathers and scatter-sums, against the plain
  reference.

  Over the extended reals the two programs compute the same two arrays. Every edge's message and gate are the
  same function of the same gathered rows: the kernel contracts the first weight matrix in its three row groups
  (128 + 128 + 1) where the reference contracts the joined 257 columns at once, which differ only in how one
  finite sum is grouped; `silu` is `z · σ(z)` in both spellings; and a change of float format is the identity
  there. The gathers, the scatter-sums, the clipped counts and the quotient are the same host operations in both
  programs, applied to arrays shown equal, so they are never opened. The node stage is the same comparison with
  256 = 128 + 128. The word-level kernel program and its idealization run and keep their arguments by their
  frames; the idealization rewrote no operation, so nothing is owed for it; the reference's run is its
  generated run with the results dropped.
-/
import proofs.«175241_j88227218194812_1_alg».proof.Defs
import proofs.«175241_j88227218194812_1_alg».proof.Proof.Gen.Kernel
import proofs.«175241_j88227218194812_1_alg».proof.Proof.Gen.Kernel.Skeleton
import proofs.«175241_j88227218194812_1_alg».proof.Proof.Gen.Kernel.Launch
import proofs.«175241_j88227218194812_1_alg».proof.Proof.Gen.Kernel.Points
import proofs.«175241_j88227218194812_1_alg».proof.Proof.Gen.Kernel.Frame
import proofs.«175241_j88227218194812_1_alg».proof.Proof.Gen.KernelIdeal
import proofs.«175241_j88227218194812_1_alg».proof.Proof.Gen.KernelIdeal.Skeleton
import proofs.«175241_j88227218194812_1_alg».proof.Proof.Gen.KernelIdeal.Launch
import proofs.«175241_j88227218194812_1_alg».proof.Proof.Gen.KernelIdeal.Points
import proofs.«175241_j88227218194812_1_alg».proof.Proof.Gen.KernelIdeal.Frame
import proofs.«175241_j88227218194812_1_alg».proof.Proof.Gen.ReferenceIdeal
import proofs.«175241_j88227218194812_1_alg».proof.Proof.Gen.Pre_finite_inputs
import proofs.«175241_j88227218194812_1_alg».proof.Proof.Gen.ReferenceIdeal.Run
import proofs.«175241_j88227218194812_1_alg».proof.Proof.Gen.ReferenceIdeal.Read
import proofs.«175241_j88227218194812_1_alg».proof.Proof.KernelRun
import proofs.«175241_j88227218194812_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the same new node features and
    the same new coordinates: the kernel program's are what its last boundary holds, which the bridge shows to be
    the reference's stages of the kernel's arguments, and the reference's run ends at those stages of its own,
    equal, arguments. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v62),
    fun c => Cert.KernelIdeal.Gen.W6 (F := Ideal) m ρ c (Proc.devRef .tc Cert.KernelIdeal.main_v57),
    Cert.KernelIdeal.Named.run (F := Ideal) m ρ, ?_⟩
  refine (θ_run Cert.ReferenceIdeal.defs _ _).mono (fun r h c => ?_) (Cert.ReferenceIdeal.Value.run (F := Ideal) m' ρ')
  obtain ⟨h0, h1, hrest⟩ := h c
  obtain ⟨e0, e1, e2, e3, e4, e5, e6, e7, e8, e9, e10, e11, e12, e13⟩ := hagree c
  refine ⟨?_, ?_, hrest⟩
  · rw [h0, Cert.ReferenceIdeal.Read.val_main_v80_eq, e0, e1, e2, e3, e4, e5, e6, e7, e8, e9, e10]
    exact (Cert.KernelIdeal.Bridge.xout_eq m ρ c).symm
  · rw [h1, Cert.ReferenceIdeal.Read.val_main_v66_eq, e0, e1, e2, e3, e4, e5, e6, e11, e12, e13]
    exact (Cert.KernelIdeal.Bridge.coord_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
